-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x8x16 : Shape := ⟨3, ![65536, 8, 16]⟩
abbrev S65x8x8 : Shape := ⟨3, ![65, 8, 8]⟩
abbrev S65x8 : Shape := ⟨2, ![65, 8]⟩
abbrev S1065536 : Shape := ⟨1, ![1065536]⟩
abbrev S_ : Shape := ⟨0, ![]⟩

class Facts : Prop where
  bcast_S_S65536x8x16 : S_.BroadcastsInDim S65536x8x16 (![] : Fin 0 → Fin S65536x8x16.rank)
  reducesTo_S65536x8x16_S_d0_1_2 : S65536x8x16.ReducesTo [0, 1, 2] S_
  h_S_ : 0 < S_.numel
  bcast_S_S65x8x8 : S_.BroadcastsInDim S65x8x8 (![] : Fin 0 → Fin S65x8x8.rank)
  reducesTo_S65x8x8_S_d0_1_2 : S65x8x8.ReducesTo [0, 1, 2] S_
  bcast_S_S65x8 : S_.BroadcastsInDim S65x8 (![] : Fin 0 → Fin S65x8.rank)
  reducesTo_S65x8_S_d0_1 : S65x8.ReducesTo [0, 1] S_
  bcast_S_S1065536 : S_.BroadcastsInDim S1065536 (![] : Fin 0 → Fin S1065536.rank)
  reducesTo_S1065536_S_d0 : S1065536.ReducesTo [0] S_

variable [Facts]

def fn_part1 {F : FTy → Type} [FloatOps F] (main_arg5 : IVec S1065536 32) (main_v13 : IVec S_ 1) (main_v15 : IVec S1065536 1) (main_c_5 : IVec S_ 1) : IVec S_ 1 :=
  let main_v16 : IVec S_ 1 := (fun x v => Host.reduce IntOp.andi x v reducesTo_S1065536_S_d0 h_S_) main_v15 main_c_5
  let main_v17 : IVec S_ 1 := andi main_v13 main_v16
  let main_c_6 : IVec S_ 32 := constantI S_ 32 65#32
  let main_v18 : IVec S1065536 32 := broadcastInDim S1065536 ![] bcast_S_S1065536 main_c_6
  let main_v19 : IVec S1065536 1 := cmpi .sle main_arg5 main_v18
  let main_c_7 : IVec S_ 1 := constantI S_ 1 1#1
  let main_v20 : IVec S_ 1 := (fun x v => Host.reduce IntOp.andi x v reducesTo_S1065536_S_d0 h_S_) main_v19 main_c_7
  let main_v21 : IVec S_ 1 := andi main_v17 main_v20
  main_v21

def fn {F : FTy → Type} [FloatOps F] (main_arg0 : FVec F S65536x8x16 .f32) (main_arg1 : FVec F S65x8x8 .f32) (main_arg2 : FVec F S65x8 .f32) (main_arg3 : IVec S1065536 32) (main_arg4 : IVec S1065536 32) (main_arg5 : IVec S1065536 32) : IVec S_ 1 :=
  let main_v0 : FVec F S65536x8x16 .f32 := Host.absf main_arg0
  let main_cst : FVec F S_ .f32 := constant S_ .f32 0x7F800000#32
  let main_v1 : FVec F S65536x8x16 .f32 := broadcastInDim S65536x8x16 ![] bcast_S_S65536x8x16 main_cst
  let main_v2 : IVec S65536x8x16 1 := cmpf .olt main_v0 main_v1
  let main_c : IVec S_ 1 := constantI S_ 1 1#1
  let main_v3 : IVec S_ 1 := (fun x v => Host.reduce IntOp.andi x v reducesTo_S65536x8x16_S_d0_1_2 h_S_) main_v2 main_c
  let main_v4 : FVec F S65x8x8 .f32 := Host.absf main_arg1
  let main_cst_0 : FVec F S_ .f32 := constant S_ .f32 0x7F800000#32
  let main_v5 : FVec F S65x8x8 .f32 := broadcastInDim S65x8x8 ![] bcast_S_S65x8x8 main_cst_0
  let main_v6 : IVec S65x8x8 1 := cmpf .olt main_v4 main_v5
  let main_c_1 : IVec S_ 1 := constantI S_ 1 1#1
  let main_v7 : IVec S_ 1 := (fun x v => Host.reduce IntOp.andi x v reducesTo_S65x8x8_S_d0_1_2 h_S_) main_v6 main_c_1
  let main_v8 : IVec S_ 1 := andi main_v3 main_v7
  let main_v9 : FVec F S65x8 .f32 := Host.absf main_arg2
  let main_cst_2 : FVec F S_ .f32 := constant S_ .f32 0x7F800000#32
  let main_v10 : FVec F S65x8 .f32 := broadcastInDim S65x8 ![] bcast_S_S65x8 main_cst_2
  let main_v11 : IVec S65x8 1 := cmpf .olt main_v9 main_v10
  let main_c_3 : IVec S_ 1 := constantI S_ 1 1#1
  let main_v12 : IVec S_ 1 := (fun x v => Host.reduce IntOp.andi x v reducesTo_S65x8_S_d0_1 h_S_) main_v11 main_c_3
  let main_v13 : IVec S_ 1 := andi main_v8 main_v12
  let main_c_4 : IVec S_ 32 := constantI S_ 32 1#32
  let main_v14 : IVec S1065536 32 := broadcastInDim S1065536 ![] bcast_S_S1065536 main_c_4
  let main_v15 : IVec S1065536 1 := cmpi .sge main_arg5 main_v14
  let main_c_5 : IVec S_ 1 := constantI S_ 1 1#1
  fn_part1 (F := F) main_arg5 main_v13 main_v15 main_c_5
-- ==== Kernel.lean ====
abbrev S65536x8x16 : Shape := ⟨3, ![65536, 8, 16]⟩
abbrev S65x8x8 : Shape := ⟨3, ![65, 8, 8]⟩
abbrev S65x8 : Shape := ⟨2, ![65, 8]⟩
abbrev S1065536 : Shape := ⟨1, ![1065536]⟩
abbrev S_ : Shape := ⟨0, ![]⟩
abbrev S3520 : Shape := ⟨1, ![3520]⟩
abbrev S1069056 : Shape := ⟨1, ![1069056]⟩
abbrev S65536x128 : Shape := ⟨2, ![65536, 128]⟩
abbrev S1069056x1 : Shape := ⟨2, ![1069056, 1]⟩
abbrev S1069056x128 : Shape := ⟨2, ![1069056, 128]⟩
abbrev S65x64 : Shape := ⟨2, ![65, 64]⟩
abbrev S63x64 : Shape := ⟨2, ![63, 64]⟩
abbrev S128x64 : Shape := ⟨2, ![128, 64]⟩
abbrev S63x8 : Shape := ⟨2, ![63, 8]⟩
abbrev S128x8 : Shape := ⟨2, ![128, 8]⟩
abbrev S4096x1 : Shape := ⟨2, ![4096, 1]⟩
abbrev S4096x128 : Shape := ⟨2, ![4096, 128]⟩
abbrev S1x128 : Shape := ⟨2, ![1, 128]⟩
abbrev S4096x64 : Shape := ⟨2, ![4096, 64]⟩
abbrev S4096x8 : Shape := ⟨2, ![4096, 8]⟩
abbrev S4096x16 : Shape := ⟨2, ![4096, 16]⟩

abbrev nBuf : Space → Nat
  | .hbm => 53
  | .vmem => 8
  | .smem => 0
  | _ => 0

abbrev bufTy : (tb : Table) → Fin (tcTables nBuf tb) → BufTy
  | .hbm, ⟨0, _⟩ => ⟨S65536x8x16, .f32⟩
  | .hbm, ⟨1, _⟩ => ⟨S65x8x8, .f32⟩
  | .hbm, ⟨2, _⟩ => ⟨S65x8, .f32⟩
  | .hbm, ⟨3, _⟩ => ⟨S1065536, .i32⟩
  | .hbm, ⟨4, _⟩ => ⟨S1065536, .i32⟩
  | .hbm, ⟨5, _⟩ => ⟨S1065536, .i32⟩
  | .hbm, ⟨6, _⟩ => ⟨S_, .i32⟩
  | .hbm, ⟨7, _⟩ => ⟨S3520, .i32⟩
  | .hbm, ⟨8, _⟩ => ⟨S1069056, .i32⟩
  | .hbm, ⟨9, _⟩ => ⟨S_, .i32⟩
  | .hbm, ⟨10, _⟩ => ⟨S3520, .i32⟩
  | .hbm, ⟨11, _⟩ => ⟨S1069056, .i32⟩
  | .hbm, ⟨12, _⟩ => ⟨S_, .i32⟩
  | .hbm, ⟨13, _⟩ => ⟨S3520, .i32⟩
  | .hbm, ⟨14, _⟩ => ⟨S1069056, .i32⟩
  | .hbm, ⟨15, _⟩ => ⟨S65536x8x16, .bf16⟩
  | .hbm, ⟨16, _⟩ => ⟨S65536x128, .bf16⟩
  | .hbm, ⟨17, _⟩ => ⟨S_, .i32⟩
  | .hbm, ⟨18, _⟩ => ⟨S1069056, .i32⟩
  | .hbm, ⟨19, _⟩ => ⟨S1069056, .i1⟩
  | .hbm, ⟨20, _⟩ => ⟨S_, .i32⟩
  | .hbm, ⟨21, _⟩ => ⟨S1069056, .i32⟩
  | .hbm, ⟨22, _⟩ => ⟨S1069056, .i32⟩
  | .hbm, ⟨23, _⟩ => ⟨S1069056, .i32⟩
  | .hbm, ⟨24, _⟩ => ⟨S1069056x1, .i32⟩
  | .hbm, ⟨25, _⟩ => ⟨S1069056x128, .bf16⟩
  | .hbm, ⟨26, _⟩ => ⟨S65x64, .f32⟩
  | .hbm, ⟨27, _⟩ => ⟨S65x64, .bf16⟩
  | .hbm, ⟨28, _⟩ => ⟨S_, .bf16⟩
  | .hbm, ⟨29, _⟩ => ⟨S63x64, .bf16⟩
  | .hbm, ⟨30, _⟩ => ⟨S128x64, .bf16⟩
  | .hbm, ⟨31, _⟩ => ⟨S_, .f32⟩
  | .hbm, ⟨32, _⟩ => ⟨S63x8, .f32⟩
  | .hbm, ⟨33, _⟩ => ⟨S128x8, .f32⟩
  | .hbm, ⟨34, _⟩ => ⟨S_, .i32⟩
  | .hbm, ⟨35, _⟩ => ⟨S1069056, .i32⟩
  | .hbm, ⟨36, _⟩ => ⟨S1069056, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1069056, .i32⟩
  | .hbm, ⟨41, _⟩ => ⟨S1069056, .i32⟩
  | .hbm, ⟨42, _⟩ => ⟨S_, .i32⟩
  | .hbm, ⟨43, _⟩ => ⟨S1069056, .i32⟩
  | .hbm, ⟨44, _⟩ => ⟨S1069056, .i32⟩
  | .hbm, ⟨45, _⟩ => ⟨S1069056x1, .i32⟩
  | .hbm, ⟨46, _⟩ => ⟨S1069056x128, .bf16⟩
  | .hbm, ⟨47, _⟩ => ⟨S1069056x128, .f32⟩
  | .hbm, ⟨48, _⟩ => ⟨S_, .f32⟩
  | .hbm, ⟨49, _⟩ => ⟨S65536x128, .f32⟩
  | .hbm, ⟨50, _⟩ => ⟨S1069056x1, .i32⟩
  | .hbm, ⟨51, _⟩ => ⟨S65536x128, .f32⟩
  | .hbm, ⟨52, _⟩ => ⟨S65536x8x16, .f32⟩
  | .local _ .vmem, ⟨0, _⟩ => ⟨S4096x1, .i32⟩
  | .local _ .vmem, ⟨1, _⟩ => ⟨S4096x1, .i32⟩
  | .local _ .vmem, ⟨2, _⟩ => ⟨S4096x128, .bf16⟩
  | .local _ .vmem, ⟨3, _⟩ => ⟨S4096x128, .bf16⟩
  | .local _ .vmem, ⟨4, _⟩ => ⟨S128x64, .bf16⟩
  | .local _ .vmem, ⟨5, _⟩ => ⟨S128x8, .f32⟩
  | .local _ .vmem, ⟨6, _⟩ => ⟨S4096x128, .bf16⟩
  | .local _ .vmem, ⟨7, _⟩ => ⟨S4096x128, .bf16⟩
  | _, _ => ⟨S65536x8x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_c_7 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_8 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![261], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S3520 : S_.BroadcastsInDim S3520 (![] : Fin 0 → Fin S3520.rank)
  concatenates_S1065536_S3520_S1069056_d0 : Shape.Concatenates [S1065536, S3520] S1069056 0
  bitsLt_bf16_f32 : FTy.bits .bf16 < FTy.bits .f32
  shapeCasts_S65536x8x16_S65536x128 : S65536x8x16.ShapeCasts S65536x128
  bcast_S_S1069056 : S_.BroadcastsInDim S1069056 (![] : Fin 0 → Fin S1069056.rank)
  bcast_S1069056_S1069056x1_0 : S1069056.BroadcastsInDim S1069056x1 (![0] : Fin 1 → Fin S1069056x1.rank)
  shapeCasts_S65x8x8_S65x64 : S65x8x8.ShapeCasts S65x64
  bcast_S_S63x64 : S_.BroadcastsInDim S63x64 (![] : Fin 0 → Fin S63x64.rank)
  concatenates_S65x64_S63x64_S128x64_d0 : Shape.Concatenates [S65x64, S63x64] S128x64 0
  bcast_S_S63x8 : S_.BroadcastsInDim S63x8 (![] : Fin 0 → Fin S63x8.rank)
  concatenates_S65x8_S63x8_S128x8_d0 : Shape.Concatenates [S65x8, S63x8] S128x8 0
  shapeCasts_S1069056_S1069056x1 : S1069056.ShapeCasts S1069056x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S1x128_d1_w32 : S1x128.Iotas .tc 32 [1]
  broadcasts_S4096x1_S4096x128 : S4096x1.Broadcasts S4096x128
  broadcasts_S1x128_S4096x128 : S1x128.Broadcasts S4096x128
  natLt_1_32 : 1 < 32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  slices_S4096x64_o0_0_S4096x1 : S4096x64.Slices ![0, 0] S4096x1
  slices_S4096x128_o0_0_S4096x16 : S4096x128.Slices ![0, 0] S4096x16
  broadcasts_S4096x1_S4096x16 : S4096x1.Broadcasts S4096x16
  slices_S4096x64_o0_1_S4096x1 : S4096x64.Slices ![0, 1] S4096x1
  slices_S4096x128_o0_16_S4096x16 : S4096x128.Slices ![0, 16] S4096x16
  slices_S4096x64_o0_2_S4096x1 : S4096x64.Slices ![0, 2] S4096x1
  slices_S4096x128_o0_32_S4096x16 : S4096x128.Slices ![0, 32] S4096x16
  slices_S4096x64_o0_3_S4096x1 : S4096x64.Slices ![0, 3] S4096x1
  slices_S4096x128_o0_48_S4096x16 : S4096x128.Slices ![0, 48] S4096x16
  slices_S4096x64_o0_4_S4096x1 : S4096x64.Slices ![0, 4] S4096x1
  slices_S4096x128_o0_64_S4096x16 : S4096x128.Slices ![0, 64] S4096x16
  slices_S4096x64_o0_5_S4096x1 : S4096x64.Slices ![0, 5] S4096x1
  slices_S4096x128_o0_80_S4096x16 : S4096x128.Slices ![0, 80] S4096x16
  slices_S4096x64_o0_6_S4096x1 : S4096x64.Slices ![0, 6] S4096x1
  slices_S4096x128_o0_96_S4096x16 : S4096x128.Slices ![0, 96] S4096x16
  slices_S4096x64_o0_7_S4096x1 : S4096x64.Slices ![0, 7] S4096x1
  slices_S4096x128_o0_112_S4096x16 : S4096x128.Slices ![0, 112] S4096x16
  slices_S4096x8_o0_0_S4096x1 : S4096x8.Slices ![0, 0] S4096x1
  inb_S4096x128_S4096x16_0_0 : ∀ a, (![0, 0] : Fin 2 → Nat) a + S4096x16.size a ≤ S4096x128.size a
  h_S4096x16 : 0 < S4096x16.numel
  packedbf16_S4096x128_S4096x16_0_0 : (Rect.unit (s := S4096x128) ![0, 0] S4096x16.size inb_S4096x128_S4096x16_0_0).PackedRows (EltTy.packing .bf16)
  slices_S4096x64_o0_8_S4096x1 : S4096x64.Slices ![0, 8] S4096x1
  slices_S4096x64_o0_9_S4096x1 : S4096x64.Slices ![0, 9] S4096x1
  slices_S4096x64_o0_10_S4096x1 : S4096x64.Slices ![0, 10] S4096x1
  slices_S4096x64_o0_11_S4096x1 : S4096x64.Slices ![0, 11] S4096x1
  slices_S4096x64_o0_12_S4096x1 : S4096x64.Slices ![0, 12] S4096x1
  slices_S4096x64_o0_13_S4096x1 : S4096x64.Slices ![0, 13] S4096x1
  slices_S4096x64_o0_14_S4096x1 : S4096x64.Slices ![0, 14] S4096x1
  slices_S4096x64_o0_15_S4096x1 : S4096x64.Slices ![0, 15] S4096x1
  slices_S4096x8_o0_1_S4096x1 : S4096x8.Slices ![0, 1] S4096x1
  inb_S4096x128_S4096x16_0_16 : ∀ a, (![0, 16] : Fin 2 → Nat) a + S4096x16.size a ≤ S4096x128.size a
  packedbf16_S4096x128_S4096x16_0_16 : (Rect.unit (s := S4096x128) ![0, 16] S4096x16.size inb_S4096x128_S4096x16_0_16).PackedRows (EltTy.packing .bf16)
  slices_S4096x64_o0_16_S4096x1 : S4096x64.Slices ![0, 16] S4096x1
  slices_S4096x64_o0_17_S4096x1 : S4096x64.Slices ![0, 17] S4096x1
  slices_S4096x64_o0_18_S4096x1 : S4096x64.Slices ![0, 18] S4096x1
  slices_S4096x64_o0_19_S4096x1 : S4096x64.Slices ![0, 19] S4096x1
  slices_S4096x64_o0_20_S4096x1 : S4096x64.Slices ![0, 20] S4096x1
  slices_S4096x64_o0_21_S4096x1 : S4096x64.Slices ![0, 21] S4096x1
  slices_S4096x64_o0_22_S4096x1 : S4096x64.Slices ![0, 22] S4096x1
  slices_S4096x64_o0_23_S4096x1 : S4096x64.Slices ![0, 23] S4096x1
  slices_S4096x8_o0_2_S4096x1 : S4096x8.Slices ![0, 2] S4096x1
  inb_S4096x128_S4096x16_0_32 : ∀ a, (![0, 32] : Fin 2 → Nat) a + S4096x16.size a ≤ S4096x128.size a
  packedbf16_S4096x128_S4096x16_0_32 : (Rect.unit (s := S4096x128) ![0, 32] S4096x16.size inb_S4096x128_S4096x16_0_32).PackedRows (EltTy.packing .bf16)
  slices_S4096x64_o0_24_S4096x1 : S4096x64.Slices ![0, 24] S4096x1
  slices_S4096x64_o0_25_S4096x1 : S4096x64.Slices ![0, 25] S4096x1
  slices_S4096x64_o0_26_S4096x1 : S4096x64.Slices ![0, 26] S4096x1
  slices_S4096x64_o0_27_S4096x1 : S4096x64.Slices ![0, 27] S4096x1
  slices_S4096x64_o0_28_S4096x1 : S4096x64.Slices ![0, 28] S4096x1
  slices_S4096x64_o0_29_S4096x1 : S4096x64.Slices ![0, 29] S4096x1
  slices_S4096x64_o0_30_S4096x1 : S4096x64.Slices ![0, 30] S4096x1
  slices_S4096x64_o0_31_S4096x1 : S4096x64.Slices ![0, 31] S4096x1
  slices_S4096x8_o0_3_S4096x1 : S4096x8.Slices ![0, 3] S4096x1
  inb_S4096x128_S4096x16_0_48 : ∀ a, (![0, 48] : Fin 2 → Nat) a + S4096x16.size a ≤ S4096x128.size a
  packedbf16_S4096x128_S4096x16_0_48 : (Rect.unit (s := S4096x128) ![0, 48] S4096x16.size inb_S4096x128_S4096x16_0_48).PackedRows (EltTy.packing .bf16)
  slices_S4096x64_o0_32_S4096x1 : S4096x64.Slices ![0, 32] S4096x1
  slices_S4096x64_o0_33_S4096x1 : S4096x64.Slices ![0, 33] S4096x1
  slices_S4096x64_o0_34_S4096x1 : S4096x64.Slices ![0, 34] S4096x1
  slices_S4096x64_o0_35_S4096x1 : S4096x64.Slices ![0, 35] S4096x1
  slices_S4096x64_o0_36_S4096x1 : S4096x64.Slices ![0, 36] S4096x1
  slices_S4096x64_o0_37_S4096x1 : S4096x64.Slices ![0, 37] S4096x1
  slices_S4096x64_o0_38_S4096x1 : S4096x64.Slices ![0, 38] S4096x1
  slices_S4096x64_o0_39_S4096x1 : S4096x64.Slices ![0, 39] S4096x1
  slices_S4096x8_o0_4_S4096x1 : S4096x8.Slices ![0, 4] S4096x1
  inb_S4096x128_S4096x16_0_64 : ∀ a, (![0, 64] : Fin 2 → Nat) a + S4096x16.size a ≤ S4096x128.size a
  packedbf16_S4096x128_S4096x16_0_64 : (Rect.unit (s := S4096x128) ![0, 64] S4096x16.size inb_S4096x128_S4096x16_0_64).PackedRows (EltTy.packing .bf16)
  slices_S4096x64_o0_40_S4096x1 : S4096x64.Slices ![0, 40] S4096x1
  slices_S4096x64_o0_41_S4096x1 : S4096x64.Slices ![0, 41] S4096x1
  slices_S4096x64_o0_42_S4096x1 : S4096x64.Slices ![0, 42] S4096x1
  slices_S4096x64_o0_43_S4096x1 : S4096x64.Slices ![0, 43] S4096x1
  slices_S4096x64_o0_44_S4096x1 : S4096x64.Slices ![0, 44] S4096x1
  slices_S4096x64_o0_45_S4096x1 : S4096x64.Slices ![0, 45] S4096x1
  slices_S4096x64_o0_46_S4096x1 : S4096x64.Slices ![0, 46] S4096x1
  slices_S4096x64_o0_47_S4096x1 : S4096x64.Slices ![0, 47] S4096x1
  slices_S4096x8_o0_5_S4096x1 : S4096x8.Slices ![0, 5] S4096x1
  inb_S4096x128_S4096x16_0_80 : ∀ a, (![0, 80] : Fin 2 → Nat) a + S4096x16.size a ≤ S4096x128.size a
  packedbf16_S4096x128_S4096x16_0_80 : (Rect.unit (s := S4096x128) ![0, 80] S4096x16.size inb_S4096x128_S4096x16_0_80).PackedRows (EltTy.packing .bf16)
  slices_S4096x64_o0_48_S4096x1 : S4096x64.Slices ![0, 48] S4096x1
  slices_S4096x64_o0_49_S4096x1 : S4096x64.Slices ![0, 49] S4096x1
  slices_S4096x64_o0_50_S4096x1 : S4096x64.Slices ![0, 50] S4096x1
  slices_S4096x64_o0_51_S4096x1 : S4096x64.Slices ![0, 51] S4096x1
  slices_S4096x64_o0_52_S4096x1 : S4096x64.Slices ![0, 52] S4096x1
  slices_S4096x64_o0_53_S4096x1 : S4096x64.Slices ![0, 53] S4096x1
  slices_S4096x64_o0_54_S4096x1 : S4096x64.Slices ![0, 54] S4096x1
  slices_S4096x64_o0_55_S4096x1 : S4096x64.Slices ![0, 55] S4096x1
  slices_S4096x8_o0_6_S4096x1 : S4096x8.Slices ![0, 6] S4096x1
  inb_S4096x128_S4096x16_0_96 : ∀ a, (![0, 96] : Fin 2 → Nat) a + S4096x16.size a ≤ S4096x128.size a
  packedbf16_S4096x128_S4096x16_0_96 : (Rect.unit (s := S4096x128) ![0, 96] S4096x16.size inb_S4096x128_S4096x16_0_96).PackedRows (EltTy.packing .bf16)
  slices_S4096x64_o0_56_S4096x1 : S4096x64.Slices ![0, 56] S4096x1
  slices_S4096x64_o0_57_S4096x1 : S4096x64.Slices ![0, 57] S4096x1
  slices_S4096x64_o0_58_S4096x1 : S4096x64.Slices ![0, 58] S4096x1
  slices_S4096x64_o0_59_S4096x1 : S4096x64.Slices ![0, 59] S4096x1
  slices_S4096x64_o0_60_S4096x1 : S4096x64.Slices ![0, 60] S4096x1
  slices_S4096x64_o0_61_S4096x1 : S4096x64.Slices ![0, 61] S4096x1
  slices_S4096x64_o0_62_S4096x1 : S4096x64.Slices ![0, 62] S4096x1
  slices_S4096x64_o0_63_S4096x1 : S4096x64.Slices ![0, 63] S4096x1
  slices_S4096x8_o0_7_S4096x1 : S4096x8.Slices ![0, 7] S4096x1
  inb_S4096x128_S4096x16_0_112 : ∀ a, (![0, 112] : Fin 2 → Nat) a + S4096x16.size a ≤ S4096x128.size a
  packedbf16_S4096x128_S4096x16_0_112 : (Rect.unit (s := S4096x128) ![0, 112] S4096x16.size inb_S4096x128_S4096x16_0_112).PackedRows (EltTy.packing .bf16)
  bcast_S_S65536x128 : S_.BroadcastsInDim S65536x128 (![] : Fin 0 → Fin S65536x128.rank)
  shapeCasts_S65536x128_S65536x8x16 : S65536x128.ShapeCasts S65536x8x16
  gather_S65536x128_S1069056x1_S1069056x128_1_0_n_n_0_1_1128_wf : GatherDims.WF S65536x128 S1069056x1 S1069056x128 [1] [0] [] [0] [] 1 ![1, 128]
  dot_S4096x128_S128x64_S4096x64_1_0_0_1_n_n_wf : DotDims.WF S4096x128 S128x64 S4096x64 [1] [0] [0] [1] [] []
  dot_S4096x128_S128x8_S4096x8_1_0_0_1_n_n_wf : DotDims.WF S4096x128 S128x8 S4096x8 [1] [0] [0] [1] [] []
  scatter_S65536x128_S1069056x1_S1069056x128_1_0_0_1_wf : ScatterDims.WF S65536x128 S1069056x1 S1069056x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S1069056x1.size a
  hwx0_0 : ∀ i : grid0.Coords, EltTy.bits .i32 = 32 ∨ (Rect.block (s := S1069056x1) S4096x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S1069056x128.size a
  hwx0_1 : ∀ i : grid0.Coords, EltTy.bits .bf16 = 32 ∨ (Rect.block (s := S1069056x128) S4096x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .bf16 = 32 ∨ (Rect.block (s := S128x64) S128x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x8.size a ≤ S128x8.size a
  hwx0_3 : ∀ i : grid0.Coords, EltTy.bits .f32 = 32 ∨ (Rect.block (s := S128x8) S128x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S1069056x128.size a
  hwx0_4 : ∀ i : grid0.Coords, EltTy.bits .bf16 = 32 ∨ (Rect.block (s := S1069056x128) S4096x128.size (cc0_transform_4 i) (hinb0_4 i)).WholeWords (EltTy.packing .bf16)

variable [Facts₀]

def gather_S65536x128_S1069056x1_S1069056x128_1_0_n_n_0_1_1128 : GatherDims S65536x128 S1069056x1 S1069056x128 where
  offsetDims := [1]
  collapsedSliceDims := [0]
  operandBatchingDims := []
  startIndicesBatchingDims := []
  startIndexMap := [0]
  indexVectorDim := 1
  sliceSizes := ![1, 128]
  wf := gather_S65536x128_S1069056x1_S1069056x128_1_0_n_n_0_1_1128_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x128_S128x8_S4096x8_1_0_0_1_n_n : DotDims S4096x128 S128x8 S4096x8 where
  lhsContracting := [1]
  rhsContracting := [0]
  lhsNonContracting := [0]
  rhsNonContracting := [1]
  lhsBatch := []
  rhsBatch := []
  wf := dot_S4096x128_S128x8_S4096x8_1_0_0_1_n_n_wf
def scatter_S65536x128_S1069056x1_S1069056x128_1_0_0_1 : ScatterDims S65536x128 S1069056x1 S1069056x128 where
  updateWindowDims := [1]
  insertedWindowDims := [0]
  scatterDimsToOperandDims := [0]
  indexVectorDim := 1
  wf := scatter_S65536x128_S1069056x1_S1069056x128_1_0_0_1_wf

abbrev win0_0 : Pipeline.Window sig grid0 :=
  Pipeline.Window.ofSpec (Memref.whole main_v24) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x8x16 : Shape := ⟨3, ![65536, 8, 16]⟩
abbrev S65x8x8 : Shape := ⟨3, ![65, 8, 8]⟩
abbrev S65x8 : Shape := ⟨2, ![65, 8]⟩
abbrev S1065536 : Shape := ⟨1, ![1065536]⟩
abbrev S_ : Shape := ⟨0, ![]⟩
abbrev S1065536x1 : Shape := ⟨2, ![1065536, 1]⟩
abbrev S1065536x8x8 : Shape := ⟨3, ![1065536, 8, 8]⟩
abbrev S1065536x8x16 : Shape := ⟨3, ![1065536, 8, 16]⟩
abbrev S1065536x8 : Shape := ⟨2, ![1065536, 8]⟩
abbrev S65536x8 : Shape := ⟨2, ![65536, 8]⟩
abbrev S65536x8x1 : Shape := ⟨3, ![65536, 8, 1]⟩

abbrev nBuf : Space → Nat
  | .hbm => 51
  | .vmem => 0
  | .smem => 0
  | _ => 0

abbrev bufTy : (tb : Table) → Fin (tcTables nBuf tb) → BufTy
  | .hbm, ⟨0, _⟩ => ⟨S65536x8x16, .f32⟩
  | .hbm, ⟨1, _⟩ => ⟨S65x8x8, .f32⟩
  | .hbm, ⟨2, _⟩ => ⟨S65x8, .f32⟩
  | .hbm, ⟨3, _⟩ => ⟨S1065536, .i32⟩
  | .hbm, ⟨4, _⟩ => ⟨S1065536, .i32⟩
  | .hbm, ⟨5, _⟩ => ⟨S1065536, .i32⟩
  | .hbm, ⟨6, _⟩ => ⟨S_, .i32⟩
  | .hbm, ⟨7, _⟩ => ⟨S1065536, .i32⟩
  | .hbm, ⟨8, _⟩ => ⟨S1065536, .i32⟩
  | .hbm, ⟨9, _⟩ => ⟨S_, .i32⟩
  | .hbm, ⟨10, _⟩ => ⟨S1065536, .i32⟩
  | .hbm, ⟨11, _⟩ => ⟨S1065536, .i1⟩
  | .hbm, ⟨12, _⟩ => ⟨S_, .i32⟩
  | .hbm, ⟨13, _⟩ => ⟨S1065536, .i32⟩
  | .hbm, ⟨14, _⟩ => ⟨S1065536, .i32⟩
  | .hbm, ⟨15, _⟩ => ⟨S1065536, .i32⟩
  | .hbm, ⟨16, _⟩ => ⟨S1065536x1, .i32⟩
  | .hbm, ⟨17, _⟩ => ⟨S1065536x8x8, .f32⟩
  | .hbm, ⟨18, _⟩ => ⟨S_, .i32⟩
  | .hbm, ⟨19, _⟩ => ⟨S1065536, .i32⟩
  | .hbm, ⟨20, _⟩ => ⟨S1065536, .i1⟩
  | .hbm, ⟨21, _⟩ => ⟨S_, .i32⟩
  | .hbm, ⟨22, _⟩ => ⟨S1065536, .i32⟩
  | .hbm, ⟨23, _⟩ => ⟨S1065536, .i32⟩
  | .hbm, ⟨24, _⟩ => ⟨S1065536, .i32⟩
  | .hbm, ⟨25, _⟩ => ⟨S1065536x1, .i32⟩
  | .hbm, ⟨26, _⟩ => ⟨S1065536x8x16, .f32⟩
  | .hbm, ⟨27, _⟩ => ⟨S1065536x8x16, .f32⟩
  | .hbm, ⟨28, _⟩ => ⟨S_, .f32⟩
  | .hbm, ⟨29, _⟩ => ⟨S65536x8x16, .f32⟩
  | .hbm, ⟨30, _⟩ => ⟨S1065536x1, .i32⟩
  | .hbm, ⟨31, _⟩ => ⟨S65536x8x16, .f32⟩
  | .hbm, ⟨32, _⟩ => ⟨S_, .i32⟩
  | .hbm, ⟨33, _⟩ => ⟨S1065536, .i32⟩
  | .hbm, ⟨34, _⟩ => ⟨S1065536, .i32⟩
  | .hbm, ⟨35, _⟩ => ⟨S_, .i32⟩
  | .hbm, ⟨36, _⟩ => ⟨S1065536, .i32⟩
  | .hbm, ⟨37, _⟩ => ⟨S1065536, .i1⟩
  | .hbm, ⟨38, _⟩ => ⟨S_, .i32⟩
  | .hbm, ⟨39, _⟩ => ⟨S1065536, .i32⟩
  | .hbm, ⟨40, _⟩ => ⟨S1065536, .i32⟩
  | .hbm, ⟨41, _⟩ => ⟨S1065536, .i32⟩
  | .hbm, ⟨42, _⟩ => ⟨S1065536x1, .i32⟩
  | .hbm, ⟨43, _⟩ => ⟨S1065536x8, .f32⟩
  | .hbm, ⟨44, _⟩ => ⟨S_, .f32⟩
  | .hbm, ⟨45, _⟩ => ⟨S65536x8, .f32⟩
  | .hbm, ⟨46, _⟩ => ⟨S1065536x1, .i32⟩
  | .hbm, ⟨47, _⟩ => ⟨S65536x8, .f32⟩
  | .hbm, ⟨48, _⟩ => ⟨S65536x8x1, .f32⟩
  | .hbm, ⟨49, _⟩ => ⟨S65536x8x16, .f32⟩
  | .hbm, ⟨50, _⟩ => ⟨S65536x8x16, .f32⟩
  | _, _ => ⟨S65536x8x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S_S1065536 : S_.BroadcastsInDim S1065536 (![] : Fin 0 → Fin S1065536.rank)
  bcast_S1065536_S1065536x1_0 : S1065536.BroadcastsInDim S1065536x1 (![0] : Fin 1 → Fin S1065536x1.rank)
  bcast_S_S65536x8x16 : S_.BroadcastsInDim S65536x8x16 (![] : Fin 0 → Fin S65536x8x16.rank)
  bcast_S_S65536x8 : S_.BroadcastsInDim S65536x8 (![] : Fin 0 → Fin S65536x8.rank)
  bcast_S65536x8_S65536x8x1_0_1 : S65536x8.BroadcastsInDim S65536x8x1 (![0, 1] : Fin 2 → Fin S65536x8x1.rank)
  bcast_S65536x8x1_S65536x8x16_0_1_2 : S65536x8x1.BroadcastsInDim S65536x8x16 (![0, 1, 2] : Fin 3 → Fin S65536x8x16.rank)
  gather_S65x8x8_S1065536x1_S1065536x8x8_12_0_n_n_0_1_188_wf : GatherDims.WF S65x8x8 S1065536x1 S1065536x8x8 [1, 2] [0] [] [0] [] 1 ![1, 8, 8]
  gather_S65536x8x16_S1065536x1_S1065536x8x16_12_0_n_n_0_1_1816_wf : GatherDims.WF S65536x8x16 S1065536x1 S1065536x8x16 [1, 2] [0] [] [0] [] 1 ![1, 8, 16]
  dot_S1065536x8x8_S1065536x8x16_S1065536x8x16_2_1_1_2_0_0_wf : DotDims.WF S1065536x8x8 S1065536x8x16 S1065536x8x16 [2] [1] [1] [2] [0] [0]
  scatter_S65536x8x16_S1065536x1_S1065536x8x16_12_0_0_1_wf : ScatterDims.WF S65536x8x16 S1065536x1 S1065536x8x16 [1, 2] [0] [0] 1
  gather_S65x8_S1065536x1_S1065536x8_1_0_n_n_0_1_18_wf : GatherDims.WF S65x8 S1065536x1 S1065536x8 [1] [0] [] [0] [] 1 ![1, 8]
  scatter_S65536x8_S1065536x1_S1065536x8_1_0_0_1_wf : ScatterDims.WF S65536x8 S1065536x1 S1065536x8 [1] [0] [0] 1

variable [Facts₀]

def gather_S65x8x8_S1065536x1_S1065536x8x8_12_0_n_n_0_1_188 : GatherDims S65x8x8 S1065536x1 S1065536x8x8 where
  offsetDims := [1, 2]
  collapsedSliceDims := [0]
  operandBatchingDims := []
  startIndicesBatchingDims := []
  startIndexMap := [0]
  indexVectorDim := 1
  sliceSizes := ![1, 8, 8]
  wf := gather_S65x8x8_S1065536x1_S1065536x8x8_12_0_n_n_0_1_188_wf
def gather_S65536x8x16_S1065536x1_S1065536x8x16_12_0_n_n_0_1_1816 : GatherDims S65536x8x16 S1065536x1 S1065536x8x16 where
  offsetDims := [1, 2]
  collapsedSliceDims := [0]
  operandBatchingDims := []
  startIndicesBatchingDims := []
  startIndexMap := [0]
  indexVectorDim := 1
  sliceSizes := ![1, 8, 16]
  wf := gather_S65536x8x16_S1065536x1_S1065536x8x16_12_0_n_n_0_1_1816_wf
def dot_S1065536x8x8_S1065536x8x16_S1065536x8x16_2_1_1_2_0_0 : DotDims S1065536x8x8 S1065536x8x16 S1065536x8x16 where
  lhsContracting := [2]
  rhsContracting := [1]
  lhsNonContracting := [1]
  rhsNonContracting := [2]
  lhsBatch := [0]
  rhsBatch := [0]
  wf := dot_S1065536x8x8_S1065536x8x16_S1065536x8x16_2_1_1_2_0_0_wf
def scatter_S65536x8x16_S1065536x1_S1065536x8x16_12_0_0_1 : ScatterDims S65536x8x16 S1065536x1 S1065536x8x16 where
  updateWindowDims := [1, 2]
  insertedWindowDims := [0]
  scatterDimsToOperandDims := [0]
  indexVectorDim := 1
  wf := scatter_S65536x8x16_S1065536x1_S1065536x8x16_12_0_0_1_wf
def gather_S65x8_S1065536x1_S1065536x8_1_0_n_n_0_1_18 : GatherDims S65x8 S1065536x1 S1065536x8 where
  offsetDims := [1]
  collapsedSliceDims := [0]
  operandBatchingDims := []
  startIndicesBatchingDims := []
  startIndexMap := [0]
  indexVectorDim := 1
  sliceSizes := ![1, 8]
  wf := gather_S65x8_S1065536x1_S1065536x8_1_0_n_n_0_1_18_wf
def scatter_S65536x8_S1065536x1_S1065536x8_1_0_0_1 : ScatterDims S65536x8 S1065536x1 S1065536x8 where
  updateWindowDims := [1]
  insertedWindowDims := [0]
  scatterDimsToOperandDims := [0]
  indexVectorDim := 1
  wf := scatter_S65536x8_S1065536x1_S1065536x8_1_0_0_1_wf

class Facts : Prop extends Facts₀ where

variable [Facts]
-- ==== Proof.LibScatterGather.lean ====
/-
  The host's gather and accumulating scatter, read at one index, for the shapes this program uses: a table of `n` rows
  (scalars, or rows of `h` numbers) addressed through an [m × 1] column of 32-bit start indices.

  A SCATTER reads the start index signed and does not clamp it: update `e` is added to row `landing n (idx e)`, which is
  nowhere when the index is negative or at least `n` (the update is dropped). So the result at row `k` is the operand
  there plus the sum of the updates whose index lands on `k`; for rows of `h` numbers, feature by feature.
  A GATHER reads the start index signed and clamps it into the table: result row `e` is the table's row
  `rowOf n (idx e)`.
  Two facts tie them together: an index that lands on `k` is the word of `k` (so comparing an index with the word of a
  row number decides landing), and an index that lands on `k` is not negative, so the wrap-around of negative indices
  (`index + n` when negative) leaves it alone and the clamped read of it is row `k`.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.Decode

open Idealize.ShloMosaic Idealize.ShloMosaic.ValueIdx

/-- Where a start index (a 32-bit word read signed) lands among `n` rows: nowhere when negative or at least `n`. -/
def landing (n : Nat) (w : BitVec 32) : Option (Fin n) :=
  if h : 0 ≤ w.toInt ∧ w.toInt < n then some ⟨w.toInt.toNat, by omega⟩ else none

/-- The row a gather reads for a start index: the index read signed and clamped into the table. -/
def rowOf (n : Nat) (hn : 0 < n) (w : BitVec 32) : Fin n := ⟨min w.toInt.toNat (n - 1), by omega⟩

/-! ## The accumulating scatter of scalars: where update `j` lands -/

section ScatterScalar

variable {n m : Nat} (d : ScatterDims ⟨1, ![n]⟩ ⟨2, ![m, 1]⟩ ⟨1, ![m]⟩)

/-- Update `j` reads its start index at row `j 0` of the index column: the one update axis is the scatter axis, and the
    index vector has the single component 0. -/
theorem siIdx_scalar (hsd : d.scatterDimsToOperandDims = [0]) (hiv : d.indexVectorDim = 1)
    (j : (⟨1, ![m]⟩ : Shape).Idx) (c : Fin d.scatterDimsToOperandDims.length) : d.siIdx j c = ix2 (j 0) 0 := by
  have hl : d.scatterDimsToOperandDims.length = 1 := by rw [hsd]; rfl
  funext b
  match b with
  | ⟨0, _⟩ =>
    unfold ScatterDims.siIdx
    rw [dif_neg (by rw [hiv]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hiv])]
    apply Fin.ext
    show c.val = 0
    have := c.isLt
    omega

/-- The window of update `j` starts at its index, read signed. -/
theorem start_scalar (hsd : d.scatterDimsToOperandDims = [0]) (hiv : d.indexVectorDim = 1)
    (idx : IVec ⟨2, ![m, 1]⟩ 32) (j : (⟨1, ![m]⟩ : Shape).Idx) (a : Fin 1) :
    d.start j idx a = (idx (ix2 (j 0) 0)).toInt := by
  have ha : a ∈ d.scatterDimsToOperandDims := by
    rw [hsd, Subsingleton.elim a 0]; exact List.mem_singleton.mpr rfl
  unfold ScatterDims.start
  rw [dif_pos ha, siIdx_scalar d hsd hiv]
  rfl

/-- The operand's one axis is inserted: an update has no window coordinate on it. -/
theorem window_scalar (hiw : d.insertedWindowDims = [0]) (j : (⟨1, ![m]⟩ : Shape).Idx) (a : Fin 1) : d.window j a = 0 := by
  have ha : a ∉ d.sKept := by
    rw [Subsingleton.elim a 0]
    simp [ScatterDims.sKept, Shape.kept, hiw]
  unfold ScatterDims.window
  rw [dif_neg ha]

/-- Update `j` lands on the row its index lands on. -/
theorem resultIdx_scalar (hiw : d.insertedWindowDims = [0]) (hsd : d.scatterDimsToOperandDims = [0]) (hiv : d.indexVectorDim = 1)
    (idx : IVec ⟨2, ![m, 1]⟩ 32) (j : (⟨1, ![m]⟩ : Shape).Idx) :
    d.resultIdx? j idx = (landing n (idx (ix2 (j 0) 0))).map ix1 := by
  have hsw : ∀ a : Fin 1, d.start j idx a + (d.window j a : Int) = (idx (ix2 (j 0) 0)).toInt := fun a => by
    rw [start_scalar d hsd hiv, window_scalar d hiw]; simp
  unfold ScatterDims.resultIdx? landing
  by_cases hw : 0 ≤ (idx (ix2 (j 0) 0)).toInt ∧ (idx (ix2 (j 0) 0)).toInt < n
  · rw [dif_pos (fun a => by rw [hsw a, Subsingleton.elim a 0]; exact hw), dif_pos hw]
    simp only [Option.map_some]
    congr 1
    funext a
    have ha : a = 0 := Subsingleton.elim _ _
    subst ha
    apply Fin.ext
    show (d.start j idx 0 + (d.window j 0 : Int)).toNat = (idx (ix2 (j 0) 0)).toInt.toNat
    rw [hsw 0]
  · rw [dif_neg (fun hall => hw (by have h0 := hall 0; rw [hsw 0] at h0; exact h0)), dif_neg hw]
    rfl

end ScatterScalar

/-! ## The accumulating scatter of rows: where update `j` lands -/

section ScatterRows

variable {n m h : Nat} (d : ScatterDims ⟨2, ![n, h]⟩ ⟨2, ![m, 1]⟩ ⟨2, ![m, h]⟩)

/-- Of the update's two axes, axis 1 is the window axis, so axis 0 is the only scatter axis. -/
theorem uScatter_rows (huw : d.updateWindowDims = [1]) (X : Fin 2) (hX : X ∈ d.uScatter) : X = 0 := by
  have hne : X ≠ 1 := by simpa [ScatterDims.uScatter, Shape.kept, huw] using hX
  have hlt : X.val < 2 := X.isLt
  have hv : X.val ≠ 1 := fun hv => hne (Fin.ext hv)
  apply Fin.ext
  show X.val = 0
  omega

/-- Update `j` reads its start index at row `j 0` of the index column. -/
theorem siIdx_rows (huw : d.updateWindowDims = [1]) (hsd : d.scatterDimsToOperandDims = [0]) (hiv : d.indexVectorDim = 1)
    (j : (⟨2, ![m, h]⟩ : Shape).Idx) (c : Fin d.scatterDimsToOperandDims.length) : d.siIdx j c = ix2 (j 0) 0 := by
  have hl : d.scatterDimsToOperandDims.length = 1 := by rw [hsd]; rfl
  funext b
  match b with
  | ⟨0, _⟩ =>
    unfold ScatterDims.siIdx
    rw [dif_neg (by rw [hiv]; simp)]
    unfold ScatterDims.siCoord
    apply Fin.ext
    simp only [Fin.val_cast]
    have e : ∀ X : Fin 2, X ∈ d.uScatter → (j X).val = (j 0).val := fun X hX => by rw [uScatter_rows d huw X hX]
    exact e _ (List.getElem_mem _)
  | ⟨1, _⟩ =>
    unfold ScatterDims.siIdx
    rw [dif_pos (by rw [hiv])]
    apply Fin.ext
    show c.val = 0
    have := c.isLt
    omega

/-- On the table's row axis the window of update `j` starts at its index, read signed. -/
theorem start_rows0 (huw : d.updateWindowDims = [1]) (hsd : d.scatterDimsToOperandDims = [0]) (hiv : d.indexVectorDim = 1)
    (idx : IVec ⟨2, ![m, 1]⟩ 32) (j : (⟨2, ![m, h]⟩ : Shape).Idx) :
    d.start j idx 0 = (idx (ix2 (j 0) 0)).toInt := by
  have ha : (0 : Fin 2) ∈ d.scatterDimsToOperandDims := by rw [hsd]; exact List.mem_singleton.mpr rfl
  unfold ScatterDims.start
  rw [dif_pos ha, siIdx_rows d huw hsd hiv]
  rfl

/-- The feature axis is not start-indexed: the window starts at 0 there. -/
theorem start_rows1 (hsd : d.scatterDimsToOperandDims = [0]) (idx : IVec ⟨2, ![m, 1]⟩ 32) (j : (⟨2, ![m, h]⟩ : Shape).Idx) :
    d.start j idx 1 = 0 := by
  have ha : (1 : Fin 2) ∉ d.scatterDimsToOperandDims := by rw [hsd]; simp
  unfold ScatterDims.start
  rw [dif_neg ha]

/-- The row axis is inserted: no window coordinate on it. -/
theorem window_rows0 (hiw : d.insertedWindowDims = [0]) (j : (⟨2, ![m, h]⟩ : Shape).Idx) : d.window j 0 = 0 := by
  have ha : (0 : Fin 2) ∉ d.sKept := by simp [ScatterDims.sKept, Shape.kept, hiw]
  unfold ScatterDims.window
  rw [dif_neg ha]

/-- The feature axis takes the update's window coordinate, its coordinate on axis 1. -/
theorem window_rows1 (huw : d.updateWindowDims = [1]) (hiw : d.insertedWindowDims = [0]) (j : (⟨2, ![m, h]⟩ : Shape).Idx) :
    d.window j 1 = (j 1).val := by
  have ha : (1 : Fin 2) ∈ d.sKept := by simp [ScatterDims.sKept, Shape.kept, hiw]
  unfold ScatterDims.window
  rw [dif_pos ha]
  have e : ∀ X : Fin 2, X ∈ d.updateWindowDims → (j X).val = (j 1).val := fun X hX => by
    rw [huw] at hX; rw [List.mem_singleton.1 hX]
  exact e _ (List.getElem_mem _)

/-- Update `j` lands on the row its index lands on, at its own feature. -/
theorem resultIdx_rows (huw : d.updateWindowDims = [1]) (hiw : d.insertedWindowDims = [0]) (hsd : d.scatterDimsToOperandDims = [0])
    (hiv : d.indexVectorDim = 1) (idx : IVec ⟨2, ![m, 1]⟩ 32) (j : (⟨2, ![m, h]⟩ : Shape).Idx) :
    d.resultIdx? j idx
      = (landing n (idx (ix2 (j 0) 0))).map (fun r => (ix2 r (j 1) : (⟨2, ![n, h]⟩ : Shape).Idx)) := by
  have h0 : d.start j idx 0 + (d.window j 0 : Int) = (idx (ix2 (j 0) 0)).toInt := by
    rw [start_rows0 d huw hsd hiv, window_rows0 d hiw]; simp
  have h1 : d.start j idx 1 + (d.window j 1 : Int) = ((j 1).val : Int) := by
    rw [start_rows1 d hsd, window_rows1 d huw hiw]; simp
  have hj1 : ((j 1).val : Int) < (h : Int) := by exact_mod_cast (j 1).isLt
  unfold ScatterDims.resultIdx? landing
  by_cases hw : 0 ≤ (idx (ix2 (j 0) 0)).toInt ∧ (idx (ix2 (j 0) 0)).toInt < n
  · have hall : ∀ a : Fin 2, 0 ≤ d.start j idx a + (d.window j a : Int) ∧
        d.start j idx a + (d.window j a : Int) < ((⟨2, ![n, h]⟩ : Shape).size a : Int) :=
      Fin.forall_fin_two.2 ⟨by rw [h0]; exact hw, by rw [h1]; exact ⟨by omega, hj1⟩⟩
    rw [dif_pos hall, dif_pos hw]
    simp only [Option.map_some]
    congr 1
    funext a
    revert a
    refine Fin.forall_fin_two.2 ⟨?_, ?_⟩
    · apply Fin.ext
      show (d.start j idx 0 + (d.window j 0 : Int)).toNat = (idx (ix2 (j 0) 0)).toInt.toNat
      rw [h0]
    · apply Fin.ext
      show (d.start j idx 1 + (d.window j 1 : Int)).toNat = (j 1).val
      rw [h1]; simp
  · rw [dif_neg (fun hall => hw (by have a0 := hall 0; rw [h0] at a0; exact a0)), dif_neg hw]
    rfl

end ScatterRows

/-- Two rank-2 indices that are equal have equal coordinates. -/
theorem ix2_inj {n0 n1 : Nat} {a a' : Fin n0} {b b' : Fin n1} (h : ix2 a b = ix2 a' b') : a = a' ∧ b = b' :=
  ⟨congrFun h 0, congrFun h 1⟩

/-- Two rank-1 indices with the same coordinate are the same index. -/
theorem ix1_inj {n : Nat} {a b : Fin n} (h : ix1 a = ix1 b) : a = b := congrFun h 0

/-- The accumulating scatter of scalars at row `k`. -/
theorem scatterAdd_scalar {n m : Nat} (d : ScatterDims ⟨1, ![n]⟩ ⟨2, ![m, 1]⟩ ⟨1, ![m]⟩)
    (huw : d.updateWindowDims = []) (hiw : d.insertedWindowDims = [0]) (hsd : d.scatterDimsToOperandDims = [0]) (hiv : d.indexVectorDim = 1)
    (x : (⟨1, ![n]⟩ : Shape).Idx → EReal) (idx : IVec ⟨2, ![m, 1]⟩ 32) (upd : (⟨1, ![m]⟩ : Shape).Idx → EReal) (k : Fin n) :
    Host.scatterAdd (F := Ideal) (φ := .f32) d x idx upd (ix1 k)
      = x (ix1 k) + ∑ e ∈ Finset.univ.filter (fun e : Fin m => landing n (idx (ix2 e 0)) = some k), upd (ix1 e) := by
  have hmem : ∀ j : (⟨1, ![m]⟩ : Shape).Idx,
      d.resultIdx? j idx = some (ix1 k) ↔ landing n (idx (ix2 (j 0) 0)) = some k := fun j => by
    rw [resultIdx_scalar d hiw hsd hiv, Option.map_eq_some_iff]
    constructor
    · rintro ⟨a, ha, hak⟩; rw [ha, ix1_inj hak]
    · intro hl; exact ⟨k, hl, rfl⟩
  show x (ix1 k) + ∑ j ∈ Finset.univ.filter (fun j => d.resultIdx? j idx = some (ix1 k)), upd j = _
  congr 1
  -- an update index is its one coordinate: the updates that land on row k are those whose index lands there
  refine Finset.sum_bij' (fun j _ => j 0) (fun e _ => ix1 e)
    (fun j hj => Finset.mem_filter.2 ⟨Finset.mem_univ _, (hmem j).1 (Finset.mem_filter.1 hj).2⟩)
    (fun e he => Finset.mem_filter.2 ⟨Finset.mem_univ _, (hmem (ix1 e)).2 (Finset.mem_filter.1 he).2⟩)
    (fun j _ => (eq_ix1 j).symm) (fun _ _ => rfl) (fun j _ => congrArg upd (eq_ix1 j))

/-- The accumulating scatter of rows at row `k`, feature `j`. -/
theorem scatterAdd_rows {n m h : Nat} (d : ScatterDims ⟨2, ![n, h]⟩ ⟨2, ![m, 1]⟩ ⟨2, ![m, h]⟩)
    (huw : d.updateWindowDims = [1]) (hiw : d.insertedWindowDims = [0]) (hsd : d.scatterDimsToOperandDims = [0]) (hiv : d.indexVectorDim = 1)
    (x : (⟨2, ![n, h]⟩ : Shape).Idx → EReal) (idx : IVec ⟨2, ![m, 1]⟩ 32) (upd : (⟨2, ![m, h]⟩ : Shape).Idx → EReal) (k : Fin n) (j : Fin h) :
    Host.scatterAdd (F := Ideal) (φ := .f32) d x idx upd (ix2 k j)
      = x (ix2 k j) + ∑ e ∈ Finset.univ.filter (fun e : Fin m => landing n (idx (ix2 e 0)) = some k), upd (ix2 e j) := by
  have hmem : ∀ q : (⟨2, ![m, h]⟩ : Shape).Idx,
      d.resultIdx? q idx = some (ix2 k j) ↔ landing n (idx (ix2 (q 0) 0)) = some k ∧ q 1 = j := fun q => by
    rw [resultIdx_rows d huw hiw hsd hiv]
    cases hl : landing n (idx (ix2 (q 0) 0)) with
    | none => simp
    | some r =>
      simp only [Option.map_some, Option.some.injEq]
      constructor
      · intro hak; exact ix2_inj hak
      · rintro ⟨hr, hq⟩; rw [hr, hq]
  show x (ix2 k j) + ∑ q ∈ Finset.univ.filter (fun q => d.resultIdx? q idx = some (ix2 k j)), upd q = _
  congr 1
  -- an update index is (its row, its feature): the updates that land on (k, j) are feature j of the rows whose index lands on k
  refine Finset.sum_bij' (fun q _ => q 0) (fun e _ => ix2 e j)
    (fun q hq => Finset.mem_filter.2 ⟨Finset.mem_univ _, ((hmem q).1 (Finset.mem_filter.1 hq).2).1⟩)
    (fun e he => Finset.mem_filter.2 ⟨Finset.mem_univ _, (hmem (ix2 e j)).2 ⟨(Finset.mem_filter.1 he).2, rfl⟩⟩)
    (fun q hq => ?_) (fun _ _ => rfl) (fun q hq => ?_)
  · have hq1 := ((hmem q).1 (Finset.mem_filter.1 hq).2).2
    show ix2 (q 0) j = q
    rw [← hq1]; exact (eq_ix2 q).symm
  · have hq1 := ((hmem q).1 (Finset.mem_filter.1 hq).2).2
    show upd q = upd (ix2 (q 0) j)
    rw [← hq1]; exact congrArg upd (eq_ix2 q)

/-! ## The gather of rows: which table entry result index `q` reads -/

section GatherRows

variable {N n h : Nat} (d : GatherDims ⟨2, ![N, h]⟩ ⟨2, ![n, 1]⟩ ⟨2, ![n, h]⟩)

/-- Of the result's two axes, axis 1 is the offset axis, so axis 0 is the only batch axis. -/
theorem batchDims_rows (hoff : d.offsetDims = [1]) (X : Fin 2) (hX : X ∈ d.batchDims) : X = 0 := by
  have hne : X ≠ 1 := by simpa [GatherDims.batchDims, Shape.kept, hoff] using hX
  have hlt : X.val < 2 := X.isLt
  have hv : X.val ≠ 1 := fun hv => hne (Fin.ext hv)
  apply Fin.ext
  show X.val = 0
  omega

/-- Result index `q` reads its start index at row `q 0` of the index column. -/
theorem gatherSiIdx_rows (hoff : d.offsetDims = [1]) (hsim : d.startIndexMap = [0]) (hivd : d.indexVectorDim = 1)
    (q : (⟨2, ![n, h]⟩ : Shape).Idx) (c : Fin d.startIndexMap.length) : d.siIdx q c = ix2 (q 0) 0 := by
  have hl : d.startIndexMap.length = 1 := by rw [hsim]; rfl
  funext b
  match b with
  | ⟨0, _⟩ =>
    unfold GatherDims.siIdx
    rw [dif_neg (by rw [hivd]; simp)]
    unfold GatherDims.siCoord
    apply Fin.ext
    simp only [Fin.val_cast]
    have e : ∀ X : Fin 2, X ∈ d.batchDims → (q X).val = (q 0).val := fun X hX => by rw [batchDims_rows d hoff X hX]
    exact e _ (List.getElem_mem _)
  | ⟨1, _⟩ =>
    unfold GatherDims.siIdx
    rw [dif_pos (by rw [hivd])]
    apply Fin.ext
    show c.val = 0
    have := c.isLt
    omega

/-- Result index `q` reads the table at (its start index clamped into the table, its own feature): the row axis is
    collapsed and start-indexed with a slice of one row, the feature axis is the offset axis and starts at 0. -/
theorem operandIdx_rows (hoff : d.offsetDims = [1]) (hcoll : d.collapsedSliceDims = [0]) (hob : d.operandBatchingDims = [])
    (hsim : d.startIndexMap = [0]) (hivd : d.indexVectorDim = 1) (hss : d.sliceSizes = ![1, h])
    (idx : IVec ⟨2, ![n, 1]⟩ 32) (q : (⟨2, ![n, h]⟩ : Shape).Idx) (hN : 0 < N) :
    d.operandIdx q idx = (ix2 (rowOf N hN (idx (ix2 (q 0) 0))) (q 1) : (⟨2, ![N, h]⟩ : Shape).Idx) := by
  have hb : ∀ a : Fin 2, a ∉ d.operandBatchingDims := fun a => by rw [hob]; exact List.not_mem_nil
  have hk0 : (0 : Fin 2) ∉ d.sKept := by rw [GatherDims.mem_sKept, hcoll]; simp
  have hk1 : (1 : Fin 2) ∈ d.sKept := by rw [GatherDims.mem_sKept, hcoll, hob]; simp
  have hm0 : (0 : Fin 2) ∈ d.startIndexMap := by rw [hsim]; exact List.mem_singleton.mpr rfl
  have hm1 : (1 : Fin 2) ∉ d.startIndexMap := by rw [hsim]; simp
  have hsl : d.sliceSizes 0 = 1 := by rw [hss]; rfl
  funext a
  revert a
  refine Fin.forall_fin_two.2 ⟨?_, ?_⟩
  · apply Fin.ext
    show d.start q idx 0 + d.batchCoord q 0 + d.offCoord q 0 = min (idx (ix2 (q 0) 0)).toInt.toNat (N - 1)
    rw [GatherDims.batchCoord_eq_zero _ _ _ (hb 0), GatherDims.offCoord_eq_zero _ _ _ hk0]
    simp only [Nat.add_zero]
    unfold GatherDims.start
    rw [dif_pos hm0, gatherSiIdx_rows d hoff hsim hivd, hsl]
    rfl
  · apply Fin.ext
    show d.start q idx 1 + d.batchCoord q 1 + d.offCoord q 1 = (q 1).val
    rw [GatherDims.batchCoord_eq_zero _ _ _ (hb 1)]
    unfold GatherDims.start GatherDims.offCoord
    rw [dif_neg hm1, dif_pos hk1]
    simp only [Nat.add_zero, Nat.zero_add]
    have e : ∀ X : Fin 2, X ∈ d.offsetDims → (q X).val = (q 1).val := fun X hX => by
      rw [hoff] at hX; rw [List.mem_singleton.1 hX]
    exact e _ (List.getElem_mem _)

end GatherRows

/-- The gather of scalars at result row `e`. -/
theorem gather_scalar {α : Type} {N n : Nat} (d : GatherDims ⟨1, ![N]⟩ ⟨2, ![n, 1]⟩ ⟨1, ![n]⟩)
    (hcoll : d.collapsedSliceDims = [0]) (hob : d.operandBatchingDims = []) (hsim : d.startIndexMap = [0]) (hivd : d.indexVectorDim = 1)
    (x : (⟨1, ![N]⟩ : Shape).Idx → α) (idx : IVec ⟨2, ![n, 1]⟩ 32) (e : Fin n) (hN : 0 < N) :
    Host.gather d x idx (ix1 e) = x (ix1 (rowOf N hN (idx (ix2 e 0)))) := by
  -- the take-shaped gather read at one position, its rank-1 index and its index-column row written by coordinates
  have h1 : ∀ {q : Nat} (p : Fin q), (Shape.Idx.ofFin p : (⟨1, ![q]⟩ : Shape).Idx) = ix1 p := fun p => by
    funext a; match a with | ⟨0, _⟩ => rfl
  have h2 : StableHlo.Predicate.ixP e = ix2 e 0 := by
    funext a; match a with | ⟨0, _⟩ => rfl | ⟨1, _⟩ => rfl
  rw [← h1 e, ← h2]
  exact (StableHlo.Predicate.gather_take d hcoll hob hsim hivd x idx e hN).trans (congrArg x (h1 _))

/-- The gather of rows at result row `e`, feature `j`. -/
theorem gather_rows {α : Type} {N n h : Nat} (d : GatherDims ⟨2, ![N, h]⟩ ⟨2, ![n, 1]⟩ ⟨2, ![n, h]⟩)
    (hoff : d.offsetDims = [1]) (hcoll : d.collapsedSliceDims = [0]) (hob : d.operandBatchingDims = [])
    (hsb : d.startIndicesBatchingDims = []) (hsim : d.startIndexMap = [0]) (hivd : d.indexVectorDim = 1) (hss : d.sliceSizes = ![1, h])
    (x : (⟨2, ![N, h]⟩ : Shape).Idx → α) (idx : IVec ⟨2, ![n, 1]⟩ 32) (e : Fin n) (j : Fin h) (hN : 0 < N) :
    Host.gather d x idx (ix2 e j) = x (ix2 (rowOf N hN (idx (ix2 e 0))) j) := by
  show x (d.operandIdx (ix2 e j) idx) = _
  rw [operandIdx_rows d hoff hcoll hob hsim hivd hss idx (ix2 e j) hN]
  rfl

/-- An index lands on row `k` exactly when it is the word of `k`. -/
theorem landing_eq_some_iff {n : Nat} (hn : n ≤ 2 ^ 31) (w : BitVec 32) (k : Fin n) :
    landing n w = some k ↔ w = BitVec.ofNat 32 k.val := by
  have hk := k.isLt
  have hwlt := w.isLt
  unfold landing
  constructor
  · intro h
    split at h
    · rename_i hw
      -- the landing row's number is the index read signed; a word below 2^31 reads the same signed and unsigned
      have hv : w.toInt.toNat = k.val := congrArg Fin.val (Option.some.inj h)
      have hc := BitVec.toInt_eq_toNat_cond w
      apply BitVec.eq_of_toNat_eq
      rw [BitVec.toNat_ofNat, Nat.mod_eq_of_lt (by omega)]
      split at hc <;> omega
    · exact absurd h (by simp)
  · intro h
    subst h
    have htn : (BitVec.ofNat 32 k.val).toNat = k.val := by
      rw [BitVec.toNat_ofNat]; exact Nat.mod_eq_of_lt (by omega)
    have hti : (BitVec.ofNat 32 k.val).toInt = (k.val : Int) := by
      rw [BitVec.toInt_eq_toNat_cond, htn, if_pos (by omega)]
    rw [dif_pos ⟨by omega, by omega⟩]
    congr 1
    apply Fin.ext
    show (BitVec.ofNat 32 k.val).toInt.toNat = k.val
    omega

/-- An index that lands on row `k` is not negative: wrapping negative indices around leaves it alone, and the clamped
    read of it is row `k`. -/
theorem rowOf_wrap_of_landing {n : Nat} (hn : 0 < n) (hn' : n < 2 ^ 31) (w : BitVec 32) (k : Fin n) (h : landing n w = some k) :
    rowOf n hn (Scalar.select (Scalar.cmpi .slt w 0#32) (w + BitVec.ofNat 32 n) w) = k := by
  unfold landing at h
  split at h
  · rename_i hw
    have hk : w.toInt.toNat = k.val := congrArg Fin.val (Option.some.inj h)
    -- a landing index is not below zero, so the signed comparison with zero fails and the select keeps the index
    have hs : w.slt 0#32 = false := by
      simp only [BitVec.slt, BitVec.toInt_zero, decide_eq_false_iff_not, not_lt]
      exact hw.1
    have hc : Scalar.cmpi .slt w 0#32 = 0#1 := by
      show BitVec.ofBool (w.slt 0#32) = 0#1
      rw [hs]; rfl
    rw [hc, select_zero]
    apply Fin.ext
    show min w.toInt.toNat (n - 1) = k.val
    omega
  · exact absurd h (by simp)

end Cert.Decode

end
-- ==== Proof.Spec.lean ====
/-
  The common vocabulary of this certificate, over plain functions and no program.

  The graph convolution sums, for every node n, output feature o and lane q, the messages of the edges whose target
  lands on n.  Edge e of type t reads row t - 1 of the weight table W (a matrix [8 × 8]) and of the bias table b,
  and row src e of the features x; its message at (o, q) is  Σ_i W[t-1, o, i] · x[src e, i, q]  +  b[t-1, o].

  The reference gathers the rows (an index below zero wraps once, then is clamped into the table) and scatters the
  products and the biases separately.  The kernel pads the edge list to a multiple of the block length with edges of
  type 66, source 0 and target 0, selects the table rows by a product with a one-hot row of 128 entries over tables
  padded with zero rows, and scatters the flattened messages once.
-/
import Idealize.ShloMosaic.PureOps.Ideal
import Idealize.ShloMosaic.PureOps.Ideal.Laws
import Idealize.ShloMosaic.Lib.ValueIdx
import proofs.«430689_j8091718385775_3_alg».proof.Proof.LibScatterGather

noncomputable section

namespace Cert.Gnn

open Idealize.ShloMosaic Idealize.ShloMosaic.ValueIdx Cert.Decode

/-- The arguments' shapes: features, weights, biases, and the three edge lists. -/
abbrev SX : Shape := ⟨3, ![65536, 8, 16]⟩
abbrev SW : Shape := ⟨3, ![65, 8, 8]⟩
abbrev SB : Shape := ⟨2, ![65, 8]⟩
abbrev SE : Shape := ⟨1, ![1065536]⟩

/-- A start index below zero wraps around once (the table's length is added); any other is kept. -/
def wrap (n : Nat) (w : BitVec 32) : BitVec 32 :=
  Scalar.select (IntOp.cmpi .slt w 0#32) (IntOp.addi w (BitVec.ofNat 32 n)) w

/-- The clamp of a word into [0, 127], read signed. -/
def clip (w : BitVec 32) : BitVec 32 := IntOp.minsi 127#32 (IntOp.maxsi 0#32 w)

/-- An edge list padded to 1069056 entries with a filler word. -/
def padI (a : SE.Idx → BitVec 32) (fill : BitVec 32) (e : Fin 1069056) : BitVec 32 :=
  if h : e.val < 1065536 then a (ix1 ⟨e.val, h⟩) else fill

/-- Entry t of the one-hot row of the word w: one where w is the word of t, zero elsewhere. -/
def hot (w : BitVec 32) (t : Fin 128) : EReal := if w = BitVec.ofNat 32 t.val then 1 else 0

/-- Column o·16 + q of a flattened [8 × 16] row. -/
def col (o : Fin 8) (q : Fin 16) : Fin 128 := ⟨o.val * 16 + q.val, by omega⟩
/-- Column o·8 + i of a flattened [8 × 8] matrix. -/
def wcol (o i : Fin 8) : Fin 64 := ⟨o.val * 8 + i.val, by omega⟩
/-- Edge t·4096 + r: row r of block t of the padded edge list. -/
def edge (t : Fin 261) (r : Fin 4096) : Fin 1069056 := ⟨t.val * 4096 + r.val, by omega⟩

/-- What the kernel body computes for one edge at slab o, lane q: from the edge's type word, its gathered feature row
    (128 numbers), the padded weight table (128 rows of 64) and the padded bias table (128 rows of 8). -/
def blockMsg (ty : BitVec 32) (xs : Fin 128 → EReal) (wt : Fin 128 → Fin 64 → EReal) (bt : Fin 128 → Fin 8 → EReal)
    (o : Fin 8) (q : Fin 16) : EReal :=
  (∑ i : Fin 8, (∑ t : Fin 128, hot ty t * wt t (wcol o i)) * xs (col i q)) + ∑ t : Fin 128, hot ty t * bt t o

section Ref

variable (x : SX.Idx → EReal) (W : SW.Idx → EReal) (b : SB.Idx → EReal) (src tgt ety : SE.Idx → BitVec 32)

/-- The table row the reference reads for edge e: its type minus one, wrapped and clamped into the 65 rows. -/
def refRow (e : Fin 1065536) : Fin 65 := rowOf 65 (by decide) (wrap 65 (IntOp.subi (ety (ix1 e)) 1#32))
/-- The feature row the reference reads for edge e. -/
def xRow (e : Fin 1065536) : Fin 65536 := rowOf 65536 (by decide) (wrap 65536 (src (ix1 e)))
/-- The edges whose target lands on node n. -/
def lands (n : Fin 65536) : Finset (Fin 1065536) :=
  Finset.univ.filter fun e => landing 65536 (tgt (ix1 e)) = some n

/-- The reference's result at node n, feature o, lane q. -/
def refVal (n : Fin 65536) (o : Fin 8) (q : Fin 16) : EReal :=
  (∑ e ∈ lands tgt n, ∑ i : Fin 8, W (ix3 (refRow ety e) o i) * x (ix3 (xRow src e) i q))
    + ∑ e ∈ lands tgt n, b (ix2 (refRow ety e) o)

end Ref

end Cert.Gnn

end
-- ==== Proof.Bridge.lean ====
/-
  The kernel's sum is the reference's sum.

  For an edge of type t in 1 … 65 the one-hot row of the clamped word t - 1 has its single one at t - 1, so the product
  with a padded table picks row t - 1, the row the reference gathers (a word in 0 … 64 neither wraps nor is clamped).
  A padding edge has type 66: its clamped word is 65, the one-hot row picks the zero row 65 of both padded tables, and
  its message is zero whatever feature row it reads. So the sum over the padded edge list that lands on a node is the
  sum over the true edges that land there, and a sum of (products + bias) is the sum of the products plus the sum of
  the biases.
-/
import Mathlib.Algebra.BigOperators.Group.Finset.Basic
import Mathlib.Algebra.BigOperators.Fin
import proofs.«430689_j8091718385775_3_alg».proof.Proof.Spec

set_option maxRecDepth 16384

noncomputable section

namespace Cert.Gnn

open Idealize.ShloMosaic Idealize.ShloMosaic.ValueIdx Cert.Decode

/-! ## The one-hot row picks one table row -/

/-- Against the one-hot row of the word of t0, a sum over the 128 rows is the term of row t0: every other row is
    multiplied by zero, and zero times anything is zero on the extended reals. -/
theorem hot_sum (t0 : Fin 128) (f : Fin 128 → EReal) :
    ∑ t : Fin 128, hot (BitVec.ofNat 32 t0.val) t * f t = f t0 := by
  rw [Finset.sum_eq_single t0]
  · simp [hot]
  · intro t _ hne
    have hw : ¬ (BitVec.ofNat 32 t0.val = BitVec.ofNat 32 t.val) := by
      intro h
      apply hne
      have h' := congrArg BitVec.toNat h
      simp only [BitVec.toNat_ofNat] at h'
      have h1 := t.isLt
      have h0 := t0.isLt
      rw [Nat.mod_eq_of_lt (by omega), Nat.mod_eq_of_lt (by omega)] at h'
      exact Fin.ext h'.symm
    simp [hot, hw]
  · intro h; exact absurd (Finset.mem_univ _) h

/-- A word that reads, signed, between 1 and 65 is the word of k + 1 for a row number k below 65. -/
theorem word_of_range (w : BitVec 32) (h1 : 1 ≤ w.toInt) (h2 : w.toInt ≤ 65) :
    ∃ k : Fin 65, w = BitVec.ofNat 32 (k.val + 1) := by
  have hc := BitVec.toInt_eq_toNat_cond w
  have hlt := w.isLt
  have hn : 1 ≤ w.toNat ∧ w.toNat ≤ 65 := by split at hc <;> omega
  refine ⟨⟨w.toNat - 1, by omega⟩, ?_⟩
  apply BitVec.eq_of_toNat_eq
  rw [BitVec.toNat_ofNat, Nat.mod_eq_of_lt (by show w.toNat - 1 + 1 < 2 ^ 32; omega)]
  show w.toNat = w.toNat - 1 + 1
  omega

/-- The type word k + 1, less one and clamped into [0, 127], is the word of k. -/
theorem clip_real : ∀ k : Fin 65, clip (IntOp.subi (BitVec.ofNat 32 (k.val + 1)) 1#32) = BitVec.ofNat 32 k.val := by
  decide

/-- The reference reads row k for the type word k + 1: the word of k is not negative, so it does not wrap, and it
    is below 65, so the clamp keeps it. -/
theorem row_real : ∀ k : Fin 65,
    rowOf 65 (by decide) (wrap 65 (IntOp.subi (BitVec.ofNat 32 (k.val + 1)) 1#32)) = k := by
  decide

/-- The padding type 66, less one and clamped, is the word of 65. -/
theorem clip_pad : clip (IntOp.subi 66#32 1#32) = BitVec.ofNat 32 65 := by decide

/-- With the type word of a row k below 65, the body's message reads row k of both tables. -/
theorem blockMsg_real (k : Fin 65) (xs : Fin 128 → EReal) (wt : Fin 128 → Fin 64 → EReal) (bt : Fin 128 → Fin 8 → EReal)
    (o : Fin 8) (q : Fin 16) :
    blockMsg (BitVec.ofNat 32 k.val) xs wt bt o q
      = (∑ i : Fin 8, wt ⟨k.val, by omega⟩ (wcol o i) * xs (col i q)) + bt ⟨k.val, by omega⟩ o := by
  unfold blockMsg
  have e1 : ∀ f : Fin 128 → EReal, ∑ t : Fin 128, hot (BitVec.ofNat 32 k.val) t * f t = f ⟨k.val, by omega⟩ :=
    fun f => hot_sum ⟨k.val, by omega⟩ f
  simp only [e1]

/-- With the type word 65 and tables whose row 65 is zero, the body's message is zero. -/
theorem blockMsg_pad (xs : Fin 128 → EReal) (wt : Fin 128 → Fin 64 → EReal) (bt : Fin 128 → Fin 8 → EReal)
    (hw : ∀ k, wt ⟨65, by decide⟩ k = 0) (hb : ∀ o, bt ⟨65, by decide⟩ o = 0) (o : Fin 8) (q : Fin 16) :
    blockMsg (BitVec.ofNat 32 65) xs wt bt o q = 0 := by
  unfold blockMsg
  have e1 : ∀ f : Fin 128 → EReal, ∑ t : Fin 128, hot (BitVec.ofNat 32 65) t * f t = f ⟨65, by decide⟩ :=
    fun f => hot_sum ⟨65, by decide⟩ f
  simp only [e1, hw, hb, zero_mul, Finset.sum_const_zero, add_zero]

/-! ## The kernel's message of a padded edge, from the argument arrays -/

section

variable (x : SX.Idx → EReal) (W : SW.Idx → EReal) (b : SB.Idx → EReal) (src tgt ety : SE.Idx → BitVec 32)

/-- The message the kernel computes for padded edge e at feature o, lane q: the body's message of the clamped type
    word, the gathered feature row, and the two tables padded with zero rows. -/
def kerMsg (e : Fin 1069056) (o : Fin 8) (q : Fin 16) : EReal :=
  blockMsg (clip (IntOp.subi (padI ety 66#32 e) 1#32))
    (fun cc => x (ix3 (rowOf 65536 (by decide) (wrap 65536 (padI src 0#32 e))) ⟨cc.val / 16, by omega⟩ ⟨cc.val % 16, by omega⟩))
    (fun t k => if h : t.val < 65 then W (ix3 ⟨t.val, h⟩ ⟨k.val / 8, by omega⟩ ⟨k.val % 8, by omega⟩) else 0)
    (fun t o' => if h : t.val < 65 then b (ix2 ⟨t.val, h⟩ o') else 0) o q

/-- A true edge, as an entry of the padded list. -/
def emb : Fin 1065536 ↪ Fin 1069056 := ⟨fun e => ⟨e.val, by omega⟩, fun a b h => Fin.ext (by simpa using congrArg Fin.val h)⟩

theorem padI_emb (a : SE.Idx → BitVec 32) (f : BitVec 32) (e : Fin 1065536) : padI a f (emb e) = a (ix1 e) := by
  unfold padI
  rw [dif_pos (show (emb e).val < 1065536 from e.isLt)]
  rfl

theorem padI_pad (a : SE.Idx → BitVec 32) (f : BitVec 32) (e : Fin 1069056) (h : ¬ e.val < 1065536) : padI a f e = f := by
  unfold padI
  rw [dif_neg h]

/-- A padding edge's message is zero. -/
theorem kerMsg_pad (e : Fin 1069056) (h : ¬ e.val < 1065536) (o : Fin 8) (q : Fin 16) :
    kerMsg x W b src ety e o q = 0 := by
  unfold kerMsg
  rw [padI_pad ety 66#32 e h, clip_pad]
  exact blockMsg_pad _ _ _ (fun k => dif_neg (by decide)) (fun o' => dif_neg (by decide)) o q

/-- A true edge's message: the products of its weight row with its feature row, plus its bias. -/
theorem kerMsg_real (hr : ∀ e : Fin 1065536, 1 ≤ (ety (ix1 e)).toInt ∧ (ety (ix1 e)).toInt ≤ 65)
    (e : Fin 1065536) (o : Fin 8) (q : Fin 16) :
    kerMsg x W b src ety (emb e) o q
      = (∑ i : Fin 8, W (ix3 (refRow ety e) o i) * x (ix3 (xRow src e) i q)) + b (ix2 (refRow ety e) o) := by
  obtain ⟨k, hk⟩ := word_of_range _ (hr e).1 (hr e).2
  have hrow : refRow ety e = k := by unfold refRow; rw [hk]; exact row_real k
  unfold kerMsg
  rw [padI_emb, padI_emb, hk, clip_real k, blockMsg_real k, hrow]
  have hk65 : k.val < 65 := k.isLt
  congr 1
  · refine Finset.sum_congr rfl fun i _ => ?_
    have hi := i.isLt
    have ho := o.isLt
    have hq := q.isLt
    have e1 : (⟨(wcol o i).val / 8, by omega⟩ : Fin 8) = o := Fin.ext (by show (o.val * 8 + i.val) / 8 = o.val; omega)
    have e2 : (⟨(wcol o i).val % 8, by omega⟩ : Fin 8) = i := Fin.ext (by show (o.val * 8 + i.val) % 8 = i.val; omega)
    have e3 : (⟨(col i q).val / 16, by omega⟩ : Fin 8) = i := Fin.ext (by show (i.val * 16 + q.val) / 16 = i.val; omega)
    have e4 : (⟨(col i q).val % 16, by omega⟩ : Fin 16) = q := Fin.ext (by show (i.val * 16 + q.val) % 16 = q.val; omega)
    show (if h : k.val < 65 then W (ix3 ⟨k.val, h⟩ ⟨(wcol o i).val / 8, _⟩ ⟨(wcol o i).val % 8, _⟩) else 0)
        * x (ix3 (rowOf 65536 _ (wrap 65536 (src (ix1 e)))) ⟨(col i q).val / 16, _⟩ ⟨(col i q).val % 16, _⟩) = _
    rw [dif_pos hk65, e1, e2, e3, e4]
    rfl
  · show (if h : k.val < 65 then b (ix2 ⟨k.val, h⟩ o) else 0) = _
    rw [dif_pos hk65]

/-- THE BRIDGE: the sum of the kernel's messages over the padded edges landing on node n is the reference's value. -/
theorem bridge (hr : ∀ e : Fin 1065536, 1 ≤ (ety (ix1 e)).toInt ∧ (ety (ix1 e)).toInt ≤ 65)
    (n : Fin 65536) (o : Fin 8) (q : Fin 16) :
    ∑ e ∈ Finset.univ.filter (fun e : Fin 1069056 => landing 65536 (padI tgt 0#32 e) = some n), kerMsg x W b src ety e o q
      = refVal x W b src tgt ety n o q := by
  -- the padded edges that land on n: the true edges that land on n, and padding edges, whose messages vanish
  have hsub : (lands tgt n).map emb ⊆ Finset.univ.filter (fun e : Fin 1069056 => landing 65536 (padI tgt 0#32 e) = some n) := by
    intro e' he'
    obtain ⟨e, he, rfl⟩ := Finset.mem_map.1 he'
    refine Finset.mem_filter.2 ⟨Finset.mem_univ _, ?_⟩
    rw [padI_emb]
    exact (Finset.mem_filter.1 he).2
  rw [← Finset.sum_subset hsub (fun e' he' hne => ?_), Finset.sum_map]
  · unfold refVal
    rw [← Finset.sum_add_distrib]
    exact Finset.sum_congr rfl fun e _ => kerMsg_real x W b src ety hr e o q
  · by_cases h : e'.val < 1065536
    · exfalso
      apply hne
      refine Finset.mem_map.2 ⟨⟨e'.val, h⟩, Finset.mem_filter.2 ⟨Finset.mem_univ _, ?_⟩, Fin.ext rfl⟩
      have := (Finset.mem_filter.1 he').2
      rwa [show e' = emb ⟨e'.val, h⟩ from Fin.ext rfl, padI_emb] at this
    · exact kerMsg_pad x W b src ety e' h o q

end

end Cert.Gnn

end
-- ==== Proof.LibGatherMats.lean ====
/-
  The host's gather of WHOLE MATRICES read at one index: a table of N matrices of h × k numbers addressed through an
  [n × 1] column of 32-bit start indices (a gather whose two offset axes are the matrix axes, whose one collapsed axis
  is the table axis, and whose slice is one whole matrix). Result matrix e is the table's matrix at the start index of
  row e, read signed and clamped into the table (the row `rowOf N` names): entry (e, i, j) of the result is entry
  (rowOf N (idx e), i, j) of the table. Generic in the four extents and in the element type.
-/
import Idealize.ShloMosaic.PureOps.Ideal
import Idealize.ShloMosaic.Lib.ValueIdx
import proofs.«430689_j8091718385775_3_alg».proof.Proof.LibScatterGather

noncomputable section

namespace Cert.Decode

open Idealize.ShloMosaic Idealize.ShloMosaic.ValueIdx

/-! ## The gather of whole matrices: which table entry result index `q` reads -/

section GatherMats

variable {N n h k : Nat} (d : GatherDims ⟨3, ![N, h, k]⟩ ⟨2, ![n, 1]⟩ ⟨3, ![n, h, k]⟩)

/-- Of the result's three axes, axes 1 and 2 are the offset axes, so axis 0 is the only batch axis. -/
theorem batchDims_mats (hoff : d.offsetDims = [1, 2]) (X : Fin 3) (hX : X ∈ d.batchDims) : X = 0 := by
  have hmem : X ∉ d.offsetDims := by
    have h2 := (List.mem_filter.1 hX).2
    simpa using h2
  rw [hoff] at hmem
  have h1 : X ≠ 1 := fun e => hmem (by rw [e]; simp)
  have h2 : X ≠ 2 := fun e => hmem (by rw [e]; simp)
  have hlt : X.val < 3 := X.isLt
  have hv1 : X.val ≠ 1 := fun hv => h1 (Fin.ext hv)
  have hv2 : X.val ≠ 2 := fun hv => h2 (Fin.ext hv)
  apply Fin.ext
  show X.val = 0
  omega

/-- Result index `q` reads its start index at row `q 0` of the index column. -/
theorem gatherSiIdx_mats (hoff : d.offsetDims = [1, 2]) (hsim : d.startIndexMap = [0]) (hivd : d.indexVectorDim = 1)
    (q : (⟨3, ![n, h, k]⟩ : Shape).Idx) (c : Fin d.startIndexMap.length) : d.siIdx q c = ix2 (q 0) 0 := by
  have hl : d.startIndexMap.length = 1 := by rw [hsim]; rfl
  funext b
  match b with
  | ⟨0, _⟩ =>
    unfold GatherDims.siIdx
    rw [dif_neg (by rw [hivd]; simp)]
    unfold GatherDims.siCoord
    apply Fin.ext
    simp only [Fin.val_cast]
    have e : ∀ X : Fin 3, X ∈ d.batchDims → (q X).val = (q 0).val := fun X hX => by rw [batchDims_mats d hoff X hX]
    exact e _ (List.getElem_mem _)
  | ⟨1, _⟩ =>
    unfold GatherDims.siIdx
    rw [dif_pos (by rw [hivd])]
    apply Fin.ext
    show c.val = 0
    have := c.isLt
    omega

/-- Result index `q` reads the table at (its start index clamped into the table, its own two offset coordinates): the
    matrix axis is collapsed and start-indexed with a slice of one matrix; the other two axes are the offset axes, in
    order, and start at 0. -/
theorem operandIdx_mats (hoff : d.offsetDims = [1, 2]) (hcoll : d.collapsedSliceDims = [0]) (hob : d.operandBatchingDims = [])
    (hsim : d.startIndexMap = [0]) (hivd : d.indexVectorDim = 1) (hss : d.sliceSizes = ![1, h, k])
    (idx : IVec ⟨2, ![n, 1]⟩ 32) (q : (⟨3, ![n, h, k]⟩ : Shape).Idx) (hN : 0 < N) :
    d.operandIdx q idx
      = (ix3 (Cert.Decode.rowOf N hN (idx (ix2 (q 0) 0))) (q 1) (q 2) : (⟨3, ![N, h, k]⟩ : Shape).Idx) := by
  have hb : ∀ a : Fin 3, a ∉ d.operandBatchingDims := fun a => by rw [hob]; exact List.not_mem_nil
  have hk0 : (0 : Fin 3) ∉ d.sKept := by rw [GatherDims.mem_sKept, hcoll]; simp
  have hk1 : (1 : Fin 3) ∈ d.sKept := by rw [GatherDims.mem_sKept, hcoll, hob]; simp
  have hk2 : (2 : Fin 3) ∈ d.sKept := by rw [GatherDims.mem_sKept, hcoll, hob]; simp
  have hm0 : (0 : Fin 3) ∈ d.startIndexMap := by rw [hsim]; exact List.mem_singleton.mpr rfl
  have hm1 : (1 : Fin 3) ∉ d.startIndexMap := by rw [hsim]; simp
  have hm2 : (2 : Fin 3) ∉ d.startIndexMap := by rw [hsim]; simp
  have hsl : d.sliceSizes 0 = 1 := by rw [hss]; rfl
  -- the operand's kept axes are 1 and 2, in that order
  have hkept : d.sKept = [1, 2] := by
    show ((List.finRange 3).filter (· ∉ d.collapsedSliceDims ++ d.operandBatchingDims)) = [1, 2]
    rw [hcoll, hob]; rfl
  have hi1 : d.sKept.idxOf (1 : Fin 3) = 0 := by rw [hkept]; rfl
  have hi2 : d.sKept.idxOf (2 : Fin 3) = 1 := by rw [hkept]; rfl
  have ho : ∀ (i : Nat) (hi : i < d.offsetDims.length), (i = 0 → d.offsetDims[i] = 1) ∧ (i = 1 → d.offsetDims[i] = 2) := by
    intro i hi
    rw [List.getElem_of_eq hoff hi]
    constructor
    · intro h0; subst h0; rfl
    · intro h1; subst h1; rfl
  funext a
  match a with
  | ⟨0, _⟩ =>
    apply Fin.ext
    show d.start q idx 0 + d.batchCoord q 0 + d.offCoord q 0 = min (idx (ix2 (q 0) 0)).toInt.toNat (N - 1)
    rw [GatherDims.batchCoord_eq_zero _ _ _ (hb 0), GatherDims.offCoord_eq_zero _ _ _ hk0]
    simp only [Nat.add_zero]
    unfold GatherDims.start
    rw [dif_pos hm0, gatherSiIdx_mats d hoff hsim hivd, hsl]
    rfl
  | ⟨1, _⟩ =>
    apply Fin.ext
    show d.start q idx 1 + d.batchCoord q 1 + d.offCoord q 1 = (q 1).val
    rw [GatherDims.batchCoord_eq_zero _ _ _ (hb 1)]
    unfold GatherDims.start GatherDims.offCoord
    rw [dif_neg hm1, dif_pos hk1]
    simp only [Nat.add_zero, Nat.zero_add]
    rw [(ho _ _).1 hi1]
  | ⟨2, _⟩ =>
    apply Fin.ext
    show d.start q idx 2 + d.batchCoord q 2 + d.offCoord q 2 = (q 2).val
    rw [GatherDims.batchCoord_eq_zero _ _ _ (hb 2)]
    unfold GatherDims.start GatherDims.offCoord
    rw [dif_neg hm2, dif_pos hk2]
    simp only [Nat.add_zero, Nat.zero_add]
    rw [(ho _ _).2 hi2]

end GatherMats

/-- The gather of whole matrices at result row `e`, coordinates `(i, j)`. -/
theorem gather_mats {α : Type} {N n h k : Nat} (d : GatherDims ⟨3, ![N, h, k]⟩ ⟨2, ![n, 1]⟩ ⟨3, ![n, h, k]⟩)
    (hoff : d.offsetDims = [1, 2]) (hcoll : d.collapsedSliceDims = [0]) (hob : d.operandBatchingDims = [])
    (hsim : d.startIndexMap = [0]) (hivd : d.indexVectorDim = 1) (hss : d.sliceSizes = ![1, h, k])
    (x : (⟨3, ![N, h, k]⟩ : Shape).Idx → α) (idx : IVec ⟨2, ![n, 1]⟩ 32) (e : Fin n) (i : Fin h) (j : Fin k) (hN : 0 < N) :
    Host.gather d x idx (ix3 e i j) = x (ix3 (Cert.Decode.rowOf N hN (idx (ix2 e 0))) i j) := by
  show x (d.operandIdx (ix3 e i j) idx) = _
  rw [operandIdx_mats d hoff hcoll hob hsim hivd hss idx (ix3 e i j) hN]
  rfl

end Cert.Decode

end
-- ==== Proof.LibScatterMats.lean ====
/-
  The host's accumulating scatter of WHOLE MATRICES read at one index: a table of n matrices of h × k numbers, updates
  of m such matrices addressed through an [m × 1] column of 32-bit start indices. Update e is added to the matrix its
  index lands on (nowhere when the index is negative or at least n), entry by entry.

  The start index is read signed and is not clamped. Of the table's three axes the first is the one the index addresses
  (it is inserted: an update has no coordinate of its own on it), and the other two carry the update's two window
  coordinates, in order and starting at 0. So update index (e, i, j) lands on (landing of index e, i, j) or nowhere,
  and the result at (r, i, j) is the table there plus the sum, over the updates e whose index lands on r, of entry
  (e, i, j) of the updates. Generic in the four extents.
-/
import Idealize.ShloMosaic.PureOps.Ideal
import Idealize.ShloMosaic.PureOps.Ideal.Laws
import Idealize.ShloMosaic.Lib.ValueIdx
import proofs.«430689_j8091718385775_3_alg».proof.Proof.LibScatterGather

noncomputable section

namespace Cert.Decode

open Idealize.ShloMosaic Idealize.ShloMosaic.ValueIdx

/-- A statement about the three axes of a rank-3 shape holds on all of them once it holds on each. -/
theorem forall_fin_three {P : Fin 3 → Prop} (p0 : P 0) (p1 : P 1) (p2 : P 2) : ∀ a, P a := by
  intro a
  match a with
  | ⟨0, _⟩ => exact p0
  | ⟨1, _⟩ => exact p1
  | ⟨2, _⟩ => exact p2

/-- Two rank-3 indices that are equal have equal coordinates. -/
theorem ix3_inj {n0 n1 n2 : Nat} {a a' : Fin n0} {b b' : Fin n1} {c c' : Fin n2} (e : ix3 a b c = ix3 a' b' c') :
    a = a' ∧ b = b' ∧ c = c' :=
  ⟨congrFun e 0, congrFun e 1, congrFun e 2⟩

/-! ## The accumulating scatter of whole matrices: where update q lands -/

section ScatterMats

variable {n m h k : Nat} (d : ScatterDims ⟨3, ![n, h, k]⟩ ⟨2, ![m, 1]⟩ ⟨3, ![m, h, k]⟩)

/-- Of the update's three axes, axes 1 and 2 are the window axes, so axis 0 is the only scatter axis. -/
theorem uScatter_mats (huw : d.updateWindowDims = [1, 2]) (X : Fin 3) (hX : X ∈ d.uScatter) : X = 0 := by
  have hmem : X ∉ d.updateWindowDims := by
    have hf := (List.mem_filter.1 hX).2
    simpa using hf
  rw [huw] at hmem
  have h1 : X ≠ 1 := fun e => hmem (by rw [e]; simp)
  have h2 : X ≠ 2 := fun e => hmem (by rw [e]; simp)
  have hlt : X.val < 3 := X.isLt
  have hv1 : X.val ≠ 1 := fun hv => h1 (Fin.ext hv)
  have hv2 : X.val ≠ 2 := fun hv => h2 (Fin.ext hv)
  apply Fin.ext
  show X.val = 0
  omega

/-- Update q reads its start index at row q 0 of the index column: the one scatter axis of the update is its axis 0,
    and the index vector has the single component 0. -/
theorem siIdx_mats (huw : d.updateWindowDims = [1, 2]) (hsd : d.scatterDimsToOperandDims = [0]) (hiv : d.indexVectorDim = 1)
    (q : (⟨3, ![m, h, k]⟩ : Shape).Idx) (c : Fin d.scatterDimsToOperandDims.length) : d.siIdx q c = ix2 (q 0) 0 := by
  have hl : d.scatterDimsToOperandDims.length = 1 := by rw [hsd]; rfl
  funext b
  match b with
  | ⟨0, _⟩ =>
    unfold ScatterDims.siIdx
    rw [dif_neg (by rw [hiv]; simp)]
    unfold ScatterDims.siCoord
    apply Fin.ext
    simp only [Fin.val_cast]
    have e : ∀ X : Fin 3, X ∈ d.uScatter → (q X).val = (q 0).val := fun X hX => by rw [uScatter_mats d huw X hX]
    exact e _ (List.getElem_mem _)
  | ⟨1, _⟩ =>
    unfold ScatterDims.siIdx
    rw [dif_pos (by rw [hiv])]
    apply Fin.ext
    show c.val = 0
    have := c.isLt
    omega

/-- On the table axis the window of update q starts at its index, read signed. -/
theorem start_mats0 (huw : d.updateWindowDims = [1, 2]) (hsd : d.scatterDimsToOperandDims = [0]) (hiv : d.indexVectorDim = 1)
    (idx : IVec ⟨2, ![m, 1]⟩ 32) (q : (⟨3, ![m, h, k]⟩ : Shape).Idx) :
    d.start q idx 0 = (idx (ix2 (q 0) 0)).toInt := by
  have ha : (0 : Fin 3) ∈ d.scatterDimsToOperandDims := by rw [hsd]; exact List.mem_singleton.mpr rfl
  unfold ScatterDims.start
  rw [dif_pos ha, siIdx_mats d huw hsd hiv]
  rfl

/-- The first matrix axis is not start-indexed: the window starts at 0 there. -/
theorem start_mats1 (hsd : d.scatterDimsToOperandDims = [0]) (idx : IVec ⟨2, ![m, 1]⟩ 32) (q : (⟨3, ![m, h, k]⟩ : Shape).Idx) :
    d.start q idx 1 = 0 := by
  have ha : (1 : Fin 3) ∉ d.scatterDimsToOperandDims := by rw [hsd]; simp
  unfold ScatterDims.start
  rw [dif_neg ha]

/-- The second matrix axis is not start-indexed: the window starts at 0 there. -/
theorem start_mats2 (hsd : d.scatterDimsToOperandDims = [0]) (idx : IVec ⟨2, ![m, 1]⟩ 32) (q : (⟨3, ![m, h, k]⟩ : Shape).Idx) :
    d.start q idx 2 = 0 := by
  have ha : (2 : Fin 3) ∉ d.scatterDimsToOperandDims := by rw [hsd]; simp
  unfold ScatterDims.start
  rw [dif_neg ha]

/-- With the table axis inserted, the operand's kept axes are the two matrix axes, in order. -/
theorem sKept_mats (hiw : d.insertedWindowDims = [0]) : d.sKept = [1, 2] := by
  show ((List.finRange 3).filter (· ∉ d.insertedWindowDims)) = [1, 2]
  rw [hiw]; rfl

/-- The table axis is inserted: no window coordinate on it. -/
theorem window_mats0 (hiw : d.insertedWindowDims = [0]) (q : (⟨3, ![m, h, k]⟩ : Shape).Idx) : d.window q 0 = 0 := by
  have ha : (0 : Fin 3) ∉ d.sKept := by rw [sKept_mats d hiw]; simp
  unfold ScatterDims.window
  rw [dif_neg ha]

/-- The first matrix axis is the first kept axis and takes the update's first window coordinate, its coordinate on axis 1. -/
theorem window_mats1 (huw : d.updateWindowDims = [1, 2]) (hiw : d.insertedWindowDims = [0]) (q : (⟨3, ![m, h, k]⟩ : Shape).Idx) :
    d.window q 1 = (q 1).val := by
  have ha : (1 : Fin 3) ∈ d.sKept := by rw [sKept_mats d hiw]; simp
  have hi : d.sKept.idxOf (1 : Fin 3) = 0 := by rw [sKept_mats d hiw]; rfl
  have ho : ∀ (i : Nat) (hlt : i < d.updateWindowDims.length), i = 0 → d.updateWindowDims[i] = 1 := by
    intro i hlt e0
    rw [List.getElem_of_eq huw hlt]
    subst e0; rfl
  unfold ScatterDims.window
  rw [dif_pos ha, ho _ _ hi]

/-- The second matrix axis is the second kept axis and takes the update's second window coordinate, its coordinate on axis 2. -/
theorem window_mats2 (huw : d.updateWindowDims = [1, 2]) (hiw : d.insertedWindowDims = [0]) (q : (⟨3, ![m, h, k]⟩ : Shape).Idx) :
    d.window q 2 = (q 2).val := by
  have ha : (2 : Fin 3) ∈ d.sKept := by rw [sKept_mats d hiw]; simp
  have hi : d.sKept.idxOf (2 : Fin 3) = 1 := by rw [sKept_mats d hiw]; rfl
  have ho : ∀ (i : Nat) (hlt : i < d.updateWindowDims.length), i = 1 → d.updateWindowDims[i] = 2 := by
    intro i hlt e1
    rw [List.getElem_of_eq huw hlt]
    subst e1; rfl
  unfold ScatterDims.window
  rw [dif_pos ha, ho _ _ hi]

/-- Update q lands on the matrix its index lands on, at its own two matrix coordinates; nowhere when its index does not land. -/
theorem resultIdx_mats (huw : d.updateWindowDims = [1, 2]) (hiw : d.insertedWindowDims = [0]) (hsd : d.scatterDimsToOperandDims = [0])
    (hiv : d.indexVectorDim = 1) (idx : IVec ⟨2, ![m, 1]⟩ 32) (q : (⟨3, ![m, h, k]⟩ : Shape).Idx) :
    d.resultIdx? q idx
      = (landing n (idx (ix2 (q 0) 0))).map (fun r => (ix3 r (q 1) (q 2) : (⟨3, ![n, h, k]⟩ : Shape).Idx)) := by
  have e0 : d.start q idx 0 + (d.window q 0 : Int) = (idx (ix2 (q 0) 0)).toInt := by
    rw [start_mats0 d huw hsd hiv, window_mats0 d hiw]; simp
  have e1 : d.start q idx 1 + (d.window q 1 : Int) = ((q 1).val : Int) := by
    rw [start_mats1 d hsd, window_mats1 d huw hiw]; simp
  have e2 : d.start q idx 2 + (d.window q 2 : Int) = ((q 2).val : Int) := by
    rw [start_mats2 d hsd, window_mats2 d huw hiw]; simp
  have hq1 : ((q 1).val : Int) < (h : Int) := by exact_mod_cast (q 1).isLt
  have hq2 : ((q 2).val : Int) < (k : Int) := by exact_mod_cast (q 2).isLt
  unfold ScatterDims.resultIdx? landing
  by_cases hw : 0 ≤ (idx (ix2 (q 0) 0)).toInt ∧ (idx (ix2 (q 0) 0)).toInt < n
  · -- the index lands: every axis of the landing place is inside the table
    have hall : ∀ a : Fin 3, 0 ≤ d.start q idx a + (d.window q a : Int) ∧
        d.start q idx a + (d.window q a : Int) < ((⟨3, ![n, h, k]⟩ : Shape).size a : Int) :=
      forall_fin_three (by rw [e0]; exact hw) (by rw [e1]; exact ⟨by omega, hq1⟩) (by rw [e2]; exact ⟨by omega, hq2⟩)
    rw [dif_pos hall, dif_pos hw]
    simp only [Option.map_some]
    congr 1
    funext a
    revert a
    refine forall_fin_three ?_ ?_ ?_
    · apply Fin.ext
      show (d.start q idx 0 + (d.window q 0 : Int)).toNat = (idx (ix2 (q 0) 0)).toInt.toNat
      rw [e0]
    · apply Fin.ext
      show (d.start q idx 1 + (d.window q 1 : Int)).toNat = (q 1).val
      rw [e1]; simp
    · apply Fin.ext
      show (d.start q idx 2 + (d.window q 2 : Int)).toNat = (q 2).val
      rw [e2]; simp
  · -- the index does not land: already the table axis is outside
    rw [dif_neg (fun hall => hw (by have a0 := hall 0; rw [e0] at a0; exact a0)), dif_neg hw]
    rfl

end ScatterMats

/-- The accumulating scatter of matrices at row r, entry (i, j). -/
theorem scatterAdd_mats {n m h k : Nat} (d : ScatterDims ⟨3, ![n, h, k]⟩ ⟨2, ![m, 1]⟩ ⟨3, ![m, h, k]⟩)
    (huw : d.updateWindowDims = [1, 2]) (hiw : d.insertedWindowDims = [0]) (hsd : d.scatterDimsToOperandDims = [0]) (hiv : d.indexVectorDim = 1)
    (x : (⟨3, ![n, h, k]⟩ : Shape).Idx → EReal) (idx : IVec ⟨2, ![m, 1]⟩ 32) (upd : (⟨3, ![m, h, k]⟩ : Shape).Idx → EReal)
    (r : Fin n) (i : Fin h) (j : Fin k) :
    Host.scatterAdd (F := Ideal) (φ := .f32) d x idx upd (ix3 r i j)
      = x (ix3 r i j) + ∑ e ∈ Finset.univ.filter (fun e : Fin m => landing n (idx (ix2 e 0)) = some r), upd (ix3 e i j) := by
  have hmem : ∀ q : (⟨3, ![m, h, k]⟩ : Shape).Idx,
      d.resultIdx? q idx = some (ix3 r i j) ↔ landing n (idx (ix2 (q 0) 0)) = some r ∧ q 1 = i ∧ q 2 = j := fun q => by
    rw [resultIdx_mats d huw hiw hsd hiv]
    cases hl : landing n (idx (ix2 (q 0) 0)) with
    | none => simp
    | some r' =>
      simp only [Option.map_some, Option.some.injEq]
      constructor
      · intro hak; exact ix3_inj hak
      · rintro ⟨hr, hq1, hq2⟩; rw [hr, hq1, hq2]
  show x (ix3 r i j) + ∑ q ∈ Finset.univ.filter (fun q => d.resultIdx? q idx = some (ix3 r i j)), upd q = _
  congr 1
  -- an update index is (its matrix, its two entry coordinates): the updates that land on (r, i, j) are entry (i, j)
  -- of the matrices whose index lands on r
  refine Finset.sum_bij' (fun q _ => q 0) (fun e _ => ix3 e i j)
    (fun q hq => Finset.mem_filter.2 ⟨Finset.mem_univ _, ((hmem q).1 (Finset.mem_filter.1 hq).2).1⟩)
    (fun e he => Finset.mem_filter.2 ⟨Finset.mem_univ _, (hmem (ix3 e i j)).2 ⟨(Finset.mem_filter.1 he).2, rfl, rfl⟩⟩)
    (fun q hq => ?_) (fun _ _ => rfl) (fun q hq => ?_)
  · have hq12 := ((hmem q).1 (Finset.mem_filter.1 hq).2).2
    show ix3 (q 0) i j = q
    rw [← hq12.1, ← hq12.2]; exact (eq_ix3 q).symm
  · have hq12 := ((hmem q).1 (Finset.mem_filter.1 hq).2).2
    show upd q = upd (ix3 (q 0) i j)
    rw [← hq12.1, ← hq12.2]; exact congrArg upd (eq_ix3 q)

end Cert.Decode

end
-- ==== Proof.RefValue.lean ====
/-
  The reference's result, read at one index.
-/
import proofs.«430689_j8091718385775_3_alg».proof.Proof.Gen.ReferenceIdeal.Read
import proofs.«430689_j8091718385775_3_alg».proof.Proof.Spec
import proofs.«430689_j8091718385775_3_alg».proof.Proof.LibGatherMats
import proofs.«430689_j8091718385775_3_alg».proof.Proof.LibScatterMats

set_option maxRecDepth 16384

noncomputable section

namespace Cert.Gnn

open Idealize.ShloMosaic Idealize.ShloMosaic.ValueIdx Cert.Decode Cert.ReferenceIdeal

/-! ## The index columns -/

/-- Row e of a one-column index table is entry e of the list it was made from. -/
theorem colIdx7 (e : Fin 1065536) : Read.idx_main_v7 (ix2 e 0) = ix1 e :=
  funext fun a => Fin.ext (by match a with | ⟨0, _⟩ => rfl)
theorem colIdx14 (e : Fin 1065536) : Read.idx_main_v14 (ix2 e 0) = ix1 e :=
  funext fun a => Fin.ext (by match a with | ⟨0, _⟩ => rfl)
theorem colIdx18 (e : Fin 1065536) : Read.idx_main_v18 (ix2 e 0) = ix1 e :=
  funext fun a => Fin.ext (by match a with | ⟨0, _⟩ => rfl)
theorem colIdx27 (e : Fin 1065536) : Read.idx_main_v27 (ix2 e 0) = ix1 e :=
  funext fun a => Fin.ext (by match a with | ⟨0, _⟩ => rfl)
theorem colIdx30 (e : Fin 1065536) : Read.idx_main_v30 (ix2 e 0) = ix1 e :=
  funext fun a => Fin.ext (by match a with | ⟨0, _⟩ => rfl)

/-- The start indices of the weight gather, at edge e: the edge's type minus one, wrapped into 65 rows. -/
theorem typeCol_apply (ety : (⟨S1065536, .i32⟩ : BufTy).Contents (Elt Ideal)) (e : Fin 1065536) :
    Read.val_main_v7 (F := Ideal) ety (ix2 e 0) = wrap 65 (IntOp.subi (ety (ix1 e)) 1#32) := by
  rw [Read.val_main_v7_apply, Read.val_main_v6_apply, Read.val_main_v3_apply, Read.val_main_v5_apply,
    Read.val_main_v1_apply, Read.val_main_v0_apply, Read.val_main_c_apply, Read.val_main_v2_apply,
    Read.val_main_c_0_apply, Read.val_main_v4_apply, Read.val_main_c_1_apply, colIdx7]
  rfl

/-- The start indices of the bias gather are the same words. -/
theorem typeCol'_apply (ety : (⟨S1065536, .i32⟩ : BufTy).Contents (Elt Ideal)) (e : Fin 1065536) :
    Read.val_main_v27 (F := Ideal) ety (ix2 e 0) = wrap 65 (IntOp.subi (ety (ix1 e)) 1#32) := by
  rw [Read.val_main_v27_apply, Read.val_main_v26_apply, Read.val_main_v23_apply, Read.val_main_v25_apply,
    Read.val_main_v21_apply, Read.val_main_v20_apply, Read.val_main_c_4_apply, Read.val_main_v22_apply,
    Read.val_main_c_5_apply, Read.val_main_v24_apply, Read.val_main_c_6_apply, colIdx27]
  rfl

/-- The start indices of the feature gather, at edge e: the edge's source, wrapped into 65536 rows. -/
theorem srcCol_apply (src : (⟨S1065536, .i32⟩ : BufTy).Contents (Elt Ideal)) (e : Fin 1065536) :
    Read.val_main_v14 (F := Ideal) src (ix2 e 0) = wrap 65536 (src (ix1 e)) := by
  rw [Read.val_main_v14_apply, Read.val_main_v13_apply, Read.val_main_v10_apply, Read.val_main_v12_apply,
    Read.val_main_v9_apply, Read.val_main_c_2_apply, Read.val_main_v11_apply, Read.val_main_c_3_apply, colIdx14]
  rfl

/-- The scatter indices of the products are the targets. -/
theorem tgtCol_apply (tgt : (⟨S1065536, .i32⟩ : BufTy).Contents (Elt Ideal)) (e : Fin 1065536) :
    Read.val_main_v18 (F := Ideal) tgt (ix2 e 0) = tgt (ix1 e) := by
  rw [Read.val_main_v18_apply, colIdx18]

/-- The scatter indices of the biases are the targets too. -/
theorem tgtCol'_apply (tgt : (⟨S1065536, .i32⟩ : BufTy).Contents (Elt Ideal)) (e : Fin 1065536) :
    Read.val_main_v30 (F := Ideal) tgt (ix2 e 0) = tgt (ix1 e) := by
  rw [Read.val_main_v30_apply, colIdx30]

/-! ## The gathers -/

/-- The gathered weight matrix of edge e is the table's matrix at the edge's row. -/
theorem wGather_apply (W : (⟨S65x8x8, .f32⟩ : BufTy).Contents (Elt Ideal)) (ety : (⟨S1065536, .i32⟩ : BufTy).Contents (Elt Ideal))
    (e : Fin 1065536) (o i : Fin 8) :
    Read.val_main_v8 (F := Ideal) W ety (ix3 e o i) = W (ix3 (refRow ety e) o i) := by
  unfold Read.val_main_v8
  rw [gather_mats (N := 65) (n := 1065536) (h := 8) (k := 8) gather_S65x8x8_S1065536x1_S1065536x8x8_12_0_n_n_0_1_188
    rfl rfl rfl rfl rfl rfl W (Read.val_main_v7 (F := Ideal) ety) e o i (by decide), typeCol_apply]
  rfl

/-- The gathered feature matrix of edge e is the feature matrix of the edge's source row. -/
theorem xGather_apply (x : (⟨S65536x8x16, .f32⟩ : BufTy).Contents (Elt Ideal)) (src : (⟨S1065536, .i32⟩ : BufTy).Contents (Elt Ideal))
    (e : Fin 1065536) (i : Fin 8) (q : Fin 16) :
    Read.val_main_v15 (F := Ideal) x src (ix3 e i q) = x (ix3 (xRow src e) i q) := by
  unfold Read.val_main_v15
  rw [gather_mats (N := 65536) (n := 1065536) (h := 8) (k := 16) gather_S65536x8x16_S1065536x1_S1065536x8x16_12_0_n_n_0_1_1816
    rfl rfl rfl rfl rfl rfl x (Read.val_main_v14 (F := Ideal) src) e i q (by decide), srcCol_apply]
  rfl

/-- The gathered bias row of edge e is the table's row at the edge's row. -/
theorem bGather_apply (b : (⟨S65x8, .f32⟩ : BufTy).Contents (Elt Ideal)) (ety : (⟨S1065536, .i32⟩ : BufTy).Contents (Elt Ideal))
    (e : Fin 1065536) (o : Fin 8) :
    Read.val_main_v28 (F := Ideal) b ety (ix2 e o) = b (ix2 (refRow ety e) o) := by
  unfold Read.val_main_v28
  rw [gather_rows (N := 65) (n := 1065536) (h := 8) gather_S65x8_S1065536x1_S1065536x8_1_0_n_n_0_1_18
    rfl rfl rfl rfl rfl rfl rfl b (Read.val_main_v27 (F := Ideal) ety) e o (by decide), typeCol'_apply]
  rfl

/-! ## The product of the gathered matrices -/

/-- In the product at (e, o, q), term k reads the left matrix at (e, o, k). -/
theorem lidx16 (e : Fin 1065536) (o : Fin 8) (q : Fin 16) (k : Fin 8) : Read.lidx_main_v16 (ix3 e o q) k = ix3 e o k :=
  funext fun a => Fin.ext (by match a with | ⟨0, _⟩ => rfl | ⟨1, _⟩ => rfl | ⟨2, _⟩ => rfl)
/-- In the product at (e, o, q), term k reads the right matrix at (e, k, q). -/
theorem ridx16 (e : Fin 1065536) (o : Fin 8) (q : Fin 16) (k : Fin 8) : Read.ridx_main_v16 (ix3 e o q) k = ix3 e k q :=
  funext fun a => Fin.ext (by match a with | ⟨0, _⟩ => rfl | ⟨1, _⟩ => rfl | ⟨2, _⟩ => rfl)

/-- The message of edge e without its bias, at feature o and lane q. -/
theorem msg_apply (x : (⟨S65536x8x16, .f32⟩ : BufTy).Contents (Elt Ideal)) (W : (⟨S65x8x8, .f32⟩ : BufTy).Contents (Elt Ideal))
    (src ety : (⟨S1065536, .i32⟩ : BufTy).Contents (Elt Ideal)) (e : Fin 1065536) (o : Fin 8) (q : Fin 16) :
    Read.val_main_v16 (F := Ideal) x W src ety (ix3 e o q)
      = ∑ i : Fin 8, W (ix3 (refRow ety e) o i) * x (ix3 (xRow src e) i q) := by
  rw [Read.val_main_v16_apply]
  refine Finset.sum_congr rfl fun k _ => ?_
  rw [lidx16, ridx16, wGather_apply, xGather_apply]

/-! ## The two scatters and their sum -/

/-- The float zero the scatters start from. -/
theorem zeroWord : (FloatOps.ofBits (F := Ideal) .f32 0x00000000#32) = 0 := Ideal.ofBits_zero_f32

/-- The edges whose scatter index lands on node n are the edges whose target does. -/
theorem landsProd (tgt : (⟨S1065536, .i32⟩ : BufTy).Contents (Elt Ideal)) (n : Fin 65536) :
    (Finset.univ.filter fun e : Fin 1065536 => landing 65536 (Read.val_main_v18 (F := Ideal) tgt (ix2 e 0)) = some n)
      = lands tgt n := by
  unfold lands
  exact Finset.filter_congr fun e _ => by rw [tgtCol_apply]

theorem landsBias (tgt : (⟨S1065536, .i32⟩ : BufTy).Contents (Elt Ideal)) (n : Fin 65536) :
    (Finset.univ.filter fun e : Fin 1065536 => landing 65536 (Read.val_main_v30 (F := Ideal) tgt (ix2 e 0)) = some n)
      = lands tgt n := by
  unfold lands
  exact Finset.filter_congr fun e _ => by rw [tgtCol'_apply]

/-- The scattered products at node n: the sum, over the edges landing on n, of their messages without bias. -/
theorem prodScatter_apply (x : (⟨S65536x8x16, .f32⟩ : BufTy).Contents (Elt Ideal)) (W : (⟨S65x8x8, .f32⟩ : BufTy).Contents (Elt Ideal))
    (src tgt ety : (⟨S1065536, .i32⟩ : BufTy).Contents (Elt Ideal)) (n : Fin 65536) (o : Fin 8) (q : Fin 16) :
    Read.val_main_v19 (F := Ideal) x W src tgt ety (ix3 n o q)
      = ∑ e ∈ lands tgt n, ∑ i : Fin 8, W (ix3 (refRow ety e) o i) * x (ix3 (xRow src e) i q) := by
  unfold Read.val_main_v19
  rw [scatterAdd_mats (n := 65536) (m := 1065536) (h := 8) (k := 16) scatter_S65536x8x16_S1065536x1_S1065536x8x16_12_0_0_1
    rfl rfl rfl rfl (Read.val_main_v17 (F := Ideal)) (Read.val_main_v18 (F := Ideal) tgt)
    (Read.val_main_v16 (F := Ideal) x W src ety) n o q,
    Read.val_main_v17_apply, Read.val_main_cst_apply, zeroWord, zero_add, landsProd]
  exact Finset.sum_congr rfl fun e _ => msg_apply x W src ety e o q

/-- The scattered biases at node n: the sum, over the edges landing on n, of their bias entries. -/
theorem biasScatter_apply (b : (⟨S65x8, .f32⟩ : BufTy).Contents (Elt Ideal)) (tgt ety : (⟨S1065536, .i32⟩ : BufTy).Contents (Elt Ideal))
    (n : Fin 65536) (o : Fin 8) :
    Read.val_main_v31 (F := Ideal) b tgt ety (ix2 n o) = ∑ e ∈ lands tgt n, b (ix2 (refRow ety e) o) := by
  unfold Read.val_main_v31
  rw [scatterAdd_rows (n := 65536) (m := 1065536) (h := 8) scatter_S65536x8_S1065536x1_S1065536x8_1_0_0_1
    rfl rfl rfl rfl (Read.val_main_v29 (F := Ideal)) (Read.val_main_v30 (F := Ideal) tgt)
    (Read.val_main_v28 (F := Ideal) b ety) n o,
    Read.val_main_v29_apply, Read.val_main_cst_7_apply, zeroWord, zero_add, landsBias]
  exact Finset.sum_congr rfl fun e _ => bGather_apply b ety e o

/-- The bias sums spread along the lanes: entry (n, o, q) reads entry (n, o). -/
theorem spreadIdx (n : Fin 65536) (o : Fin 8) (q : Fin 16) : Read.idx_main_v32 (Read.idx_main_v33 (ix3 n o q)) = ix2 n o :=
  funext fun a => Fin.ext (by match a with | ⟨0, _⟩ => rfl | ⟨1, _⟩ => rfl)

/-- The reference's result at node n, feature o, lane q is the sum of the products over the edges landing on n plus
    the sum of their biases. -/
theorem ref_apply (x : (⟨S65536x8x16, .f32⟩ : BufTy).Contents (Elt Ideal)) (W : (⟨S65x8x8, .f32⟩ : BufTy).Contents (Elt Ideal))
    (b : (⟨S65x8, .f32⟩ : BufTy).Contents (Elt Ideal)) (src tgt ety : (⟨S1065536, .i32⟩ : BufTy).Contents (Elt Ideal))
    (n : Fin 65536) (o : Fin 8) (q : Fin 16) :
    Cert.ReferenceIdeal.Read.val_main_v34 (F := Ideal) x W b src tgt ety (ix3 n o q) = refVal x W b src tgt ety n o q := by
  rw [Read.val_main_v34_apply, Read.val_main_v33_apply, Read.val_main_v32_apply, spreadIdx,
    prodScatter_apply, biasScatter_apply]
  rfl

end Cert.Gnn

end
-- ==== Proof.PreRange.lean ====
/-
  What the precondition says of the edge types: every one lies in 1 … 65.
-/
import proofs.«430689_j8091718385775_3_alg».proof.Proof.Gen.Pre_finite_inputs
import proofs.«430689_j8091718385775_3_alg».proof.Proof.Spec
import Idealize.ShloMosaic.Lib.ReduceAll

set_option maxRecDepth 16384

noncomputable section

namespace Cert.Gnn

open Idealize.ShloMosaic Idealize.ShloMosaic.ValueIdx

/-- Under the precondition every edge type, read signed, is at least 1 and at most 65. -/
theorem ty_range [Cert.Pre_finite_inputs.Facts] (x : FVec Ideal Cert.Pre_finite_inputs.S65536x8x16 .f32) (W : FVec Ideal Cert.Pre_finite_inputs.S65x8x8 .f32)
    (b : FVec Ideal Cert.Pre_finite_inputs.S65x8 .f32) (src tgt ety : IVec Cert.Pre_finite_inputs.S1065536 32)
    (h : Cert.Pre_finite_inputs.fn (F := Ideal) x W b src tgt ety = fun _ => 1#1) (e : Fin 1065536) :
    1 ≤ (ety (ix1 e)).toInt ∧ (ety (ix1 e)).toInt ≤ 65 := by
  -- the rank-zero shape has a single index: there is no coordinate to differ in
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  -- the conjunction of the five tests is one: so are its last two members, the two tests of the edge types
  obtain ⟨h17, hle⟩ := IntOp.andi_eq_one.1 h0
  obtain ⟨-, hge⟩ := IntOp.andi_eq_one.1 h17
  -- a conjunction over all edges that is one is one at edge e
  have ge := Host.reduce_andi_all _ _ _ _ _ hge (ix1 e)
  have le := Host.reduce_andi_all _ _ _ _ _ hle (ix1 e)
  -- at edge e each test compares the edge's type word with the constant, read signed
  have ge' : (1#32 : BitVec 32).toInt ≤ (ety (ix1 e)).toInt := IntOp.cmpi_sge.1 ge
  have le' : (ety (ix1 e)).toInt ≤ (65#32 : BitVec 32).toInt := IntOp.cmpi_sle.1 le
  have c1 : (1#32 : BitVec 32).toInt = 1 := by decide
  have c65 : (65#32 : BitVec 32).toInt = 65 := by decide
  exact ⟨c1 ▸ ge', c65 ▸ le'⟩

end Cert.Gnn

end
-- ==== Proof.KernelNames.lean ====
/-
  Names, at their literal types, for the arrays of the kernel program on one core: the six arguments, the four arrays
  the region reads (the clamped type column, the gathered feature rows, the two padded tables), the padded targets,
  and the message array the region leaves.
-/
import proofs.«430689_j8091718385775_3_alg».proof.Proof.Gen.KernelIdeal.Frame
import proofs.«430689_j8091718385775_3_alg».proof.Proof.Spec

set_option maxRecDepth 16384

noncomputable section

namespace Cert.Gnn

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (c : Dev nD)

/-- The argument arrays on core c: features, weights, biases, sources, targets, types. -/
abbrev aX : SX.Idx → EReal := m ((c : Thread nD τ).loc main_arg0)
abbrev aW : SW.Idx → EReal := m ((c : Thread nD τ).loc main_arg1)
abbrev aB : SB.Idx → EReal := m ((c : Thread nD τ).loc main_arg2)
abbrev aSrc : SE.Idx → BitVec 32 := m ((c : Thread nD τ).loc main_arg3)
abbrev aTgt : SE.Idx → BitVec 32 := m ((c : Thread nD τ).loc main_arg4)
abbrev aTy : SE.Idx → BitVec 32 := m ((c : Thread nD τ).loc main_arg5)

/-- The arrays the region finds: the type column, the gathered features, the padded weight and bias tables. -/
abbrev vTy : S1069056x1.Idx → BitVec 32 := V m c main_v24
abbrev vXs : S1069056x128.Idx → EReal := V m c main_v14
abbrev vWt : S128x64.Idx → EReal := V m c main_v18
abbrev vBt : S128x8.Idx → EReal := V m c main_v20
/-- The padded targets, as the lines before the region leave them. -/
abbrev vTgt : S1069056.Idx → BitVec 32 := V0 m c (Proc.devRef .tc main_v3)
/-- The message array after the region. -/
abbrev msgArr : S1069056x128.Idx → EReal := (dats m 0 c).arrAt 4 cfg0.N

end Cert.Gnn

end
-- ==== Proof.KernelArgs.lean ====
/-
  The arrays the region finds, read at one index from the argument arrays.
-/
import proofs.«430689_j8091718385775_3_alg».proof.Proof.KernelNames
import Idealize.ShloMosaic.Lib.Pipeline.Value

set_option maxRecDepth 16384

noncomputable section

namespace Cert.Gnn

open Idealize.ShloMosaic Idealize.ShloMosaic.ValueIdx Idealize.ShloMosaic.TcCoe Idealize.SL.Sem Cert.Decode Cert.KernelIdeal Cert.KernelIdeal.Gen

variable (m : (ℓ : Loc nD τ sig) → Buf (Elt Ideal) ℓ) (c : Dev nD)

/-- An edge list followed by 3520 copies of a filler word, read at one index. -/
theorem concat_pad (a : SE.Idx → BitVec 32) (fill : BitVec 32)
    (hc : Shape.Concatenates [S1065536, S3520] S1069056 0) (hb : S_.BroadcastsInDim S3520 (![] : Fin 0 → Fin S3520.rank))
    (e : Fin 1069056) :
    concatenate S1069056 0 [⟨S1065536, a⟩, ⟨S3520, broadcastInDim S3520 ![] hb (constantI S_ 32 fill)⟩] hc (ix1 e)
      = padI a fill e := by
  unfold padI
  split
  · next h =>
    exact concatenate_pair_apply_left 0 _ _ hc (ix1 e) rfl (ix1 ⟨e.val, h⟩) (fun b => by match b with | ⟨0, _⟩ => rfl)
  · next h =>
    rw [concatenate_pair_apply_right 0 _ _ hc (ix1 e) rfl rfl (ix1 ⟨e.val - 1065536, by omega⟩)
      (fun b hb => by match b with | ⟨0, _⟩ => exact absurd rfl hb) (by show (e.val - 1065536) + 1065536 = e.val; omega)]
    rfl

/-- The type column as the lines before the region build it: the types padded with 66, minus one, clamped below by 0
    and above by 127, as one column. -/
theorem ty_e :
    (vTy m c : S1069056x1.Idx → BitVec 32)
      = shapeCast S1069056x1
          (minsi (broadcastInDim S1069056 ![] Facts₀.bcast_S_S1069056 (constantI S_ 32 127#32))
            (maxsi (broadcastInDim S1069056 ![] Facts₀.bcast_S_S1069056 (constantI S_ 32 0#32))
              (subi
                (concatenate S1069056 0 [⟨S1065536, aTy m c⟩, ⟨S3520, broadcastInDim S3520 ![] Facts₀.bcast_S_S3520 (constantI S_ 32 66#32)⟩]
                  Facts₀.concatenates_S1065536_S3520_S1069056_d0)
                (broadcastInDim S1069056 ![] Facts₀.bcast_S_S1069056 (constantI S_ 32 1#32)))))
          Facts₀.shapeCasts_S1069056_S1069056x1 := by
  dsimp only [vTy, Gen.V, Gen.V0]
  simp only [Gen.hostOps0, Gen.hostOps0_1, Gen.hostOps0_2, List.flatten_cons, List.flatten_nil, List.append_nil, List.cons_append, List.nil_append]
  after_results
  simp only [StableHlo.TRef.ofBuf, StableHlo.TRef.toBuf, cast_eq, id]
  rfl

/-- The type column: the padded types (filler 66) minus one, clamped into [0, 127]. -/
theorem ty_apply (e : Fin 1069056) :
    vTy m c (ix2 e 0) = clip (IntOp.subi (padI (aTy m c) 66#32 e) 1#32) := by
  -- entry (e, 0) of the column is entry e of the list: both sit at row-major position e
  rw [ty_e, shapeCast_apply _ _ (ix2 e 0) (ix1 e) (by rw [Shape.rowMajor_val_one, Shape.rowMajor_val_two]; show e.val = e.val * 1 + 0; omega)]
  show IntOp.minsi 127#32 (IntOp.maxsi 0#32 (IntOp.subi (concatenate S1069056 0 _ _ (ix1 e)) 1#32)) = _
  rw [concat_pad]; rfl

/-- The gathered features as the lines before the region build them: the feature table flattened to rows of 128, read
    at the column of the padded sources (filler 0), a negative source wrapped around once. -/
theorem xs_e :
    (vXs m c : S1069056x128.Idx → EReal)
      = Host.gather gather_S65536x128_S1069056x1_S1069056x128_1_0_n_n_0_1_1128
          (shapeCast S65536x128 (truncf (F := Ideal) .bf16 (aX m c) Facts₀.bitsLt_bf16_f32) Facts₀.shapeCasts_S65536x8x16_S65536x128)
          (broadcastInDim S1069056x1 ![0] Facts₀.bcast_S1069056_S1069056x1_0
            (select
              (cmpi .slt
                (concatenate S1069056 0 [⟨S1065536, aSrc m c⟩, ⟨S3520, broadcastInDim S3520 ![] Facts₀.bcast_S_S3520 (constantI S_ 32 0#32)⟩]
                  Facts₀.concatenates_S1065536_S3520_S1069056_d0)
                (broadcastInDim S1069056 ![] Facts₀.bcast_S_S1069056 (constantI S_ 32 0#32)))
              (addi
                (concatenate S1069056 0 [⟨S1065536, aSrc m c⟩, ⟨S3520, broadcastInDim S3520 ![] Facts₀.bcast_S_S3520 (constantI S_ 32 0#32)⟩]
                  Facts₀.concatenates_S1065536_S3520_S1069056_d0)
                (broadcastInDim S1069056 ![] Facts₀.bcast_S_S1069056 (constantI S_ 32 65536#32)))
              (concatenate S1069056 0 [⟨S1065536, aSrc m c⟩, ⟨S3520, broadcastInDim S3520 ![] Facts₀.bcast_S_S3520 (constantI S_ 32 0#32)⟩]
                Facts₀.concatenates_S1065536_S3520_S1069056_d0))) := by
  dsimp only [vXs, Gen.V, Gen.V0]
  simp only [Gen.hostOps0, Gen.hostOps0_1, Gen.hostOps0_2, List.flatten_cons, List.flatten_nil, List.append_nil, List.cons_append, List.nil_append]
  after_results
  rfl

/-- The gathered features: row e is the feature row the padded source (filler 0) reads, flattened [8 × 16] → 128. -/
theorem xs_apply (e : Fin 1069056) (cc : Fin 128) :
    vXs m c (ix2 e cc)
      = aX m c (ix3 (rowOf 65536 (by decide) (wrap 65536 (padI (aSrc m c) 0#32 e))) ⟨cc.val / 16, by omega⟩ ⟨cc.val % 16, by omega⟩) := by
  rw [xs_e, gather_rows _ rfl rfl rfl rfl rfl rfl rfl _ _ e cc (by decide),
    broadcastInDim_apply _ _ _ (ix2 e 0) (ix1 e) (fun a => by match a with | ⟨0, _⟩ => rfl)]
  have hw : ∀ P : S1069056.Idx → BitVec 32, ∀ hb : S_.BroadcastsInDim S1069056 (![] : Fin 0 → Fin S1069056.rank),
      select (cmpi .slt P (broadcastInDim S1069056 ![] hb (constantI S_ 32 0#32)))
        (addi P (broadcastInDim S1069056 ![] hb (constantI S_ 32 65536#32))) P (ix1 e) = wrap 65536 (P (ix1 e)) := fun _ _ => rfl
  rw [hw, concat_pad]
  -- (row, cc) of the flattened table is (row, cc / 16, cc % 16) of the features: the same row-major position
  rw [shapeCast_apply _ _ _ (ix3 (rowOf 65536 (by decide) (wrap 65536 (padI (aSrc m c) 0#32 e))) ⟨cc.val / 16, by omega⟩ ⟨cc.val % 16, by omega⟩) (by
      rw [Shape.rowMajor_val_three, Shape.rowMajor_val_two]
      show ((rowOf 65536 _ _).val * 8 + cc.val / 16) * 16 + cc.val % 16 = (rowOf 65536 _ _).val * 128 + cc.val
      omega)]
  rfl

/-- The padded weight table as the lines before the region build it: the weights flattened to rows of 64, then 63 rows of
    the zero constant. -/
theorem wt_e :
    (vWt m c : S128x64.Idx → EReal)
      = concatenate S128x64 0
          [⟨S65x64, truncf (F := Ideal) .bf16 (shapeCast S65x64 (aW m c) Facts₀.shapeCasts_S65x8x8_S65x64) Facts₀.bitsLt_bf16_f32⟩,
           ⟨S63x64, broadcastInDim S63x64 ![] Facts₀.bcast_S_S63x64 (constant (F := Ideal) S_ .bf16 0x0000#16)⟩]
          Facts₀.concatenates_S65x64_S63x64_S128x64_d0 := by
  dsimp only [vWt, Gen.V, Gen.V0]
  simp only [Gen.hostOps0, Gen.hostOps0_1, Gen.hostOps0_2, List.flatten_cons, List.flatten_nil, List.append_nil, List.cons_append, List.nil_append]
  after_results
  rfl

/-- The padded weight table: rows below 65 are the weight matrices flattened [8 × 8] → 64, the rest zero. -/
theorem wt_apply (t : Fin 128) (k : Fin 64) :
    vWt m c (ix2 t k)
      = if h : t.val < 65 then aW m c (ix3 ⟨t.val, h⟩ ⟨k.val / 8, by omega⟩ ⟨k.val % 8, by omega⟩) else 0 := by
  rw [wt_e]
  split
  · next h =>
    rw [concatenate_pair_apply_left (t := S128x64) (s₁ := S65x64) (s₂ := S63x64) 0 _ _ _ (ix2 t k) rfl (ix2 ⟨t.val, h⟩ k)
      (fun b => by match b with | ⟨0, _⟩ => rfl | ⟨1, _⟩ => rfl)]
    show shapeCast S65x64 (aW m c) _ (ix2 ⟨t.val, h⟩ k) = _
    exact shapeCast_apply _ _ _ _ (by
      rw [Shape.rowMajor_val_three, Shape.rowMajor_val_two]
      show (t.val * 8 + k.val / 8) * 8 + k.val % 8 = t.val * 64 + k.val
      omega)
  · next h =>
    rw [concatenate_pair_apply_right (t := S128x64) (s₁ := S65x64) (s₂ := S63x64) 0 _ _ _ (ix2 t k) rfl rfl (ix2 ⟨t.val - 65, by omega⟩ k)
      (fun b hb => by match b with | ⟨0, _⟩ => exact absurd rfl hb | ⟨1, _⟩ => rfl)
      (by show (t.val - 65) + 65 = t.val; omega)]
    show Ideal.ofBits .bf16 0x0000#16 = 0
    simp [Ideal.ofBits, Ideal.ieee]

/-- The padded bias table as the lines before the region build it: the biases, then 63 rows of the zero constant. -/
theorem bt_e :
    (vBt m c : S128x8.Idx → EReal)
      = concatenate S128x8 0 [⟨S65x8, aB m c⟩, ⟨S63x8, broadcastInDim S63x8 ![] Facts₀.bcast_S_S63x8 (constant (F := Ideal) S_ .f32 0x00000000#32)⟩]
          Facts₀.concatenates_S65x8_S63x8_S128x8_d0 := by
  dsimp only [vBt, Gen.V, Gen.V0]
  simp only [Gen.hostOps0, Gen.hostOps0_1, Gen.hostOps0_2, List.flatten_cons, List.flatten_nil, List.append_nil, List.cons_append, List.nil_append]
  after_results

/-- The padded bias table: rows below 65 are the biases, the rest zero. -/
theorem bt_apply (t : Fin 128) (o : Fin 8) :
    vBt m c (ix2 t o) = if h : t.val < 65 then aB m c (ix2 ⟨t.val, h⟩ o) else 0 := by
  rw [bt_e]
  split
  · next h =>
    exact concatenate_pair_apply_left (t := S128x8) (s₁ := S65x8) (s₂ := S63x8) 0 _ _ _ (ix2 t o) rfl (ix2 ⟨t.val, h⟩ o)
      (fun b => by match b with | ⟨0, _⟩ => rfl | ⟨1, _⟩ => rfl)
  · next h =>
    rw [concatenate_pair_apply_right (t := S128x8) (s₁ := S65x8) (s₂ := S63x8) 0 _ _ _ (ix2 t o) rfl rfl (ix2 ⟨t.val - 65, by omega⟩ o)
      (fun b hb => by match b with | ⟨0, _⟩ => exact absurd rfl hb | ⟨1, _⟩ => rfl)
      (by show (t.val - 65) + 65 = t.val; omega)]
    show Ideal.ofBits .f32 0x00000000#32 = 0
    exact Ideal.ofBits_zero_f32

/-- The padded targets as the lines before the region build them: the targets, then 3520 copies of 0. -/
theorem tgt_e :
    (vTgt m c : S1069056.Idx → BitVec 32)
      = concatenate S1069056 0 [⟨S1065536, aTgt m c⟩, ⟨S3520, broadcastInDim S3520 ![] Facts₀.bcast_S_S3520 (constantI S_ 32 0#32)⟩]
          Facts₀.concatenates_S1065536_S3520_S1069056_d0 := by
  dsimp only [vTgt, Gen.V, Gen.V0]
  simp only [Gen.hostOps0, Gen.hostOps0_1, Gen.hostOps0_2, List.flatten_cons, List.flatten_nil, List.append_nil, List.cons_append, List.nil_append]
  after_results

/-- The padded targets (filler 0). -/
theorem tgt_apply (e : Fin 1069056) :
    vTgt m c (ix1 e) = padI (aTgt m c) 0#32 e := by
  rw [tgt_e]; exact concat_pad _ _ _ _ e

end Cert.Gnn

end
-- ==== Proof.LibPlainDot.lean ====
/-
  A plain matrix product `[M, K] × [K, N] → [M, N]` (no batch axis; the left operand contracts its axis 1, the right
  its axis 0) into a zero accumulator, read at `(p, q)` at the ideal values: the sum over `k` of the left operand at
  `(p, k)` times the right at `(k, q)`. General in the extents, the element types and the precision; the dimension
  record enters only through its six lists. Nothing here depends on a kernel.
-/
import Idealize.ShloMosaic.PureOps.Ideal.Laws
import Idealize.ShloMosaic.Lib.ValueIdx

namespace Idealize.ShloMosaic.PlainDot

open Idealize.ShloMosaic Idealize.ShloMosaic.ValueIdx

variable {sl sr so : Shape}

/-- With no batch axis and ONE non-contracting left axis `a`, the left index on `a` is the result index's axis 0. -/
theorem lhsIdx_val_of_non (d : DotDims sl sr so) {a : Fin sl.rank} (hb : d.lhsBatch = []) (hn : d.lhsNonContracting = [a])
    (j : so.Idx) (k : d.contr.Idx) (h0 : 0 < so.rank) : (d.lhsIdx j k a).val = (j ⟨0, h0⟩).val := by
  have hnb : a ∉ d.lhsBatch := by rw [hb]; exact List.not_mem_nil
  have hmem : a ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one non-contracting left axis and ONE non-contracting right axis `a`, the right index on `a` is
    the result index's axis 1. -/
theorem rhsIdx_val_of_non (d : DotDims sl sr so) {a : Fin sr.rank} {al : Fin sl.rank} (hlb : d.lhsBatch = []) (hrb : d.rhsBatch = [])
    (hln : d.lhsNonContracting = [al]) (hn : d.rhsNonContracting = [a])
    (j : so.Idx) (k : d.contr.Idx) (h1 : 1 < so.rank) : (d.rhsIdx j k a).val = (j ⟨1, h1⟩).val := by
  have hnb : a ∉ d.rhsBatch := by rw [hrb]; exact List.not_mem_nil
  have hmem : a ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

/-- One contracting axis: the contraction shape has rank one. -/
theorem contr_rank_one (d : DotDims sl sr so) {cl : Fin sl.rank} (hc : d.lhsContracting = [cl]) : d.contr.rank = 1 := by
  rw [d.rank_contr, hc]; rfl

/-- … and its one extent is the left operand's on that axis. -/
theorem contr_size_zero (d : DotDims sl sr so) {cl : Fin sl.rank} (hc : d.lhsContracting = [cl]) (h : 0 < d.contr.rank) :
    d.contr.size ⟨0, h⟩ = sl.size cl := by
  rw [d.size_contr 0 (by rw [hc]; exact Nat.one_pos)]
  simp [hc]

/-- THE PLAIN PRODUCT at `(p, q)`. -/
theorem matmul_plain_apply {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := contr_rank_one d hlc
  have hs : d.contr.size ⟨0, by omega⟩ = K := (contr_size_zero d hlc (by omega)).trans rfl
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhsIdx_val_of_non d hlb hln _ _ (by show 0 < 2; omega)
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhsIdx_val_of_non d hlb hrb hln hrn _ _ (by show 1 < 2; omega))
  rw [el, er]

end Idealize.ShloMosaic.PlainDot
-- ==== Proof.KernelBody.lean ====
/-
  What the kernel body leaves in its output block, read at one entry.
-/
import proofs.«430689_j8091718385775_3_alg».proof.Proof.Gen.KernelIdeal.Frame
import proofs.«430689_j8091718385775_3_alg».proof.Proof.Spec
import proofs.«430689_j8091718385775_3_alg».proof.Proof.LibPlainDot
import Idealize.ShloMosaic.Lib.Pipeline.Value
import Mathlib.Algebra.BigOperators.Fin

set_option maxRecDepth 16384

noncomputable section

namespace Cert.Gnn

open Idealize.ShloMosaic Idealize.ShloMosaic.ValueIdx Cert.KernelIdeal Cert.KernelIdeal.Gen

namespace Body

/-! ## Reading one column or one lane block of a row -/

/-- A one-column slice of a 64-wide row starts inside the row. -/
theorem wlt {k : Nat} (hs : S4096x64.Slices ![0, k] S4096x1) : k < 64 := by
  have h : k + 1 ≤ 64 := hs.2 1
  omega

/-- A one-column slice of an 8-wide row starts inside the row. -/
theorem blt {k : Nat} (hs : S4096x8.Slices ![0, k] S4096x1) : k < 8 := by
  have h : k + 1 ≤ 8 := hs.2 1
  omega

/-- A 16-lane slice of a 128-wide row ends inside the row. -/
theorem xlt {c : Nat} (hs : S4096x128.Slices ![0, c] S4096x16) (q : Fin 16) : c + q.val < 128 := by
  have h : c + 16 ≤ 128 := hs.2 1
  omega

/-- Column k of a 64-wide block, spread over 16 lanes, reads column k of the same row at every lane. -/
theorem wcol_read (v : FVec Ideal S4096x64 .f32) {k : Nat} (hs : S4096x64.Slices ![0, k] S4096x1)
    (hb : S4096x1.Broadcasts S4096x16) (r : Fin 4096) (q : Fin 16) :
    broadcastTo S4096x16 (extractStridedSlice S4096x1 ![0, k] v hs) hb (ix2 r q) = v (ix2 r ⟨k, wlt hs⟩) := by
  refine (broadcastTo_apply _ hb (ix2 r q) (ix2 r 0) fun a => ?_).trans
    (extractStridedSlice_apply _ v hs (ix2 r 0) (ix2 r ⟨k, wlt hs⟩) fun a => ?_)
  · match a with
    | ⟨0, _⟩ => rfl
    | ⟨1, _⟩ => rfl
  · match a with
    | ⟨0, _⟩ => show r.val = 0 + r.val; omega
    | ⟨1, _⟩ => show k = k + 0; omega

/-- Column k of an 8-wide block, spread over 16 lanes, reads column k of the same row at every lane. -/
theorem bcol_read (v : FVec Ideal S4096x8 .f32) {k : Nat} (hs : S4096x8.Slices ![0, k] S4096x1)
    (hb : S4096x1.Broadcasts S4096x16) (r : Fin 4096) (q : Fin 16) :
    broadcastTo S4096x16 (extractStridedSlice S4096x1 ![0, k] v hs) hb (ix2 r q) = v (ix2 r ⟨k, blt hs⟩) := by
  refine (broadcastTo_apply _ hb (ix2 r q) (ix2 r 0) fun a => ?_).trans
    (extractStridedSlice_apply _ v hs (ix2 r 0) (ix2 r ⟨k, blt hs⟩) fun a => ?_)
  · match a with
    | ⟨0, _⟩ => rfl
    | ⟨1, _⟩ => rfl
  · match a with
    | ⟨0, _⟩ => show r.val = 0 + r.val; omega
    | ⟨1, _⟩ => show k = k + 0; omega

/-- The 16 lanes from lane c of a 128-wide block, widened, read lane c + q of the same row. -/
theorem xlane_read (v : FVec Ideal S4096x128 .bf16) {c : Nat} (hs : S4096x128.Slices ![0, c] S4096x16)
    (hlt : FTy.bits .bf16 < FTy.bits .f32) (r : Fin 4096) (q : Fin 16) :
    extf .f32 (extractStridedSlice S4096x16 ![0, c] v hs) hlt (ix2 r q) = v (ix2 r ⟨c + q.val, xlt hs q⟩) := by
  show extractStridedSlice S4096x16 ![0, c] v hs (ix2 r q) = _
  refine extractStridedSlice_apply _ v hs (ix2 r q) (ix2 r ⟨c + q.val, xlt hs q⟩) fun a => ?_
  match a with
  | ⟨0, _⟩ => show r.val = 0 + r.val; omega
  | ⟨1, _⟩ => rfl

/-! ## The one-hot row and the two table products -/

/-- The type column spread over 128 lanes reads the row's type word at every lane. -/
theorem tycol_read (x0 : IVec S4096x1 32) (hc : S4096x1.ShapeCasts S4096x1) (hb : S4096x1.Broadcasts S4096x128)
    (r : Fin 4096) (t : Fin 128) :
    broadcastTo S4096x128 (shapeCast S4096x1 x0 hc) hb (ix2 r t) = x0 (ix2 r 0) := by
  rw [shapeCast_self]
  refine broadcastTo_apply x0 hb (ix2 r t) (ix2 r 0) fun a => ?_
  match a with
  | ⟨0, _⟩ => rfl
  | ⟨1, _⟩ => rfl

/-- The lane counter spread over 4096 rows reads the lane's number at every row. -/
theorem lane_read (hi : S1x128.Iotas .tc 32 [1]) (hb : S1x128.Broadcasts S4096x128) (r : Fin 4096) (t : Fin 128) :
    broadcastTo S4096x128 (iota .tc S1x128 32 [1] hi) hb (ix2 r t) = BitVec.ofNat 32 t.val := by
  refine (broadcastTo_apply _ hb (ix2 r t) (ix2 (0 : Fin 1) t) fun a => ?_).trans ?_
  · match a with
    | ⟨0, _⟩ => rfl
    | ⟨1, _⟩ => rfl
  · rw [iota_single_apply]

/-- A one-bit word widened to 32 bits and read as a signed integer is one for the set bit and zero for the clear one. -/
theorem bit_toInt (b : Bool) : (((BitVec.ofBool b).setWidth 32).toInt : ℝ) = if b then 1 else 0 := by
  cases b <;> simp <;> decide

/-- Entry (r, t) of the one-hot block: one where the row's type word is the word of t, zero elsewhere. -/
theorem onehot_read (x0 : Vec Ideal S4096x1 .i32) (r : Fin 4096) (t : Fin 128) :
    sitofp (F := Ideal) .f32 (extui 32 (k0_pay2 (F := Ideal) x0) natLt_1_32) (ix2 r t)
      = hot ((x0 : S4096x1.Idx → BitVec 32) (ix2 r 0)) t := by
  unfold k0_pay2
  show ((((IntOp.cmpi .eq (broadcastTo S4096x128 (shapeCast S4096x1 x0 shapeCasts_S4096x1_S4096x1) broadcasts_S4096x1_S4096x128 (ix2 r t))
        (broadcastTo S4096x128 (iota .tc S1x128 32 [1] iota_S1x128_d1_w32) broadcasts_S1x128_S4096x128 (ix2 r t))).setWidth 32).toInt : ℝ) : EReal) = _
  rw [tycol_read, lane_read]
  show ((((BitVec.ofBool (x0 (ix2 r 0) == BitVec.ofNat 32 t.val)).setWidth 32).toInt : ℝ) : EReal) = _
  rw [bit_toInt]
  unfold hot
  by_cases h : x0 (ix2 r 0) = BitVec.ofNat 32 t.val
  · rw [if_pos h, show (x0 (ix2 r 0) == BitVec.ofNat 32 t.val) = true from beq_iff_eq.mpr h]; simp
  · rw [if_neg h, show (x0 (ix2 r 0) == BitVec.ofNat 32 t.val) = false from beq_eq_false_iff_ne.mpr h]; simp

/-- Row r of the gathered weights at column k: the one-hot row of r's type word against column k of the weight table. -/
theorem pay3_apply (x0 : Vec Ideal S4096x1 .i32) (x2 : Vec Ideal S128x64 .bf16) (r : Fin 4096) (k : Fin 64) :
    k0_pay3 (F := Ideal) x0 x2 (ix2 r k)
      = ∑ t : Fin 128, hot ((x0 : S4096x1.Idx → BitVec 32) (ix2 r 0)) t * (x2 : S128x64.Idx → EReal) (ix2 t k) := by
  unfold k0_pay3
  refine (PlainDot.matmul_plain_apply dot_S4096x128_S128x64_S4096x64_1_0_0_1_n_n rfl rfl rfl rfl rfl rfl none _ _ r k).trans ?_
  refine Finset.sum_congr rfl fun t _ => ?_
  rw [shapeCast_self]
  exact congrArg (· * (x2 : S128x64.Idx → EReal) (ix2 t k)) (onehot_read x0 r t)

/-- Row r of the gathered biases at column o: the one-hot row of r's type word against column o of the bias table. -/
theorem pay4_apply (x0 : Vec Ideal S4096x1 .i32) (x3 : Vec Ideal S128x8 .f32) (r : Fin 4096) (o : Fin 8) :
    k0_pay4 (F := Ideal) x0 x3 (ix2 r o)
      = ∑ t : Fin 128, hot ((x0 : S4096x1.Idx → BitVec 32) (ix2 r 0)) t * (x3 : S128x8.Idx → EReal) (ix2 t o) := by
  unfold k0_pay4
  refine (PlainDot.matmul_plain_apply dot_S4096x128_S128x8_S4096x8_1_0_0_1_n_n rfl rfl rfl rfl rfl rfl none _ _ r o).trans ?_
  refine Finset.sum_congr rfl fun t _ => ?_
  rw [shapeCast_self]
  exact congrArg (· * (x3 : S128x8.Idx → EReal) (ix2 t o)) (onehot_read x0 r t)

/-- The feature block passes through its same-shape cast unchanged. -/
theorem pay5_eq (x1 : Vec Ideal S4096x128 .bf16) : k0_pay5 (F := Ideal) x1 = x1 := by
  unfold k0_pay5
  exact shapeCast_self _ _

/-! ## The lanewise operations at an index -/

theorem addf_at {s : Shape} {φ : FTy} (a b : FVec Ideal s φ) (i : s.Idx) : addf a b i = a i + b i := rfl
theorem mulf_at {s : Shape} {φ : FTy} (a b : FVec Ideal s φ) (i : s.Idx) : mulf a b i = a i * b i := rfl
theorem truncf_at {s : Shape} {φ ψ : FTy} (a : FVec Ideal s φ) (h : ψ.bits < φ.bits) (i : s.Idx) : truncf ψ a h i = a i := rfl
/-- The accumulator's starting block is zero everywhere. -/
theorem zero_at {s : Shape} (i : s.Idx) : broadcast s (Scalar.ofBits (F := Ideal) .f32 0x00000000#32) i = (0 : EReal) := by
  show Ideal.ofBits .f32 0x00000000#32 = 0
  exact Ideal.ofBits_zero_f32

/-! ## Each stored slab at an entry: the eight products summed from zero, then the bias -/

section Slabs

variable (v13 : FVec Ideal S4096x64 .f32) (v16 : FVec Ideal S4096x8 .f32) (v18 : FVec Ideal S4096x128 .bf16)
  (r : Fin 4096) (q : Fin 16)

/-- Slab 0. Its payload names the sum of its first four products, and the two factors of the fifth, as values of their
    own; the weights enter as the product with the one-hot block and the features as the cast block. -/
theorem slab0 (v0 : Vec Ideal S4096x1 .i32) (v11 : Vec Ideal S128x64 .bf16) (v17 : Vec Ideal S4096x128 .bf16) :
    k0_pay9 (k0_pay3 v0 v11) v16 (k0_pay5 v17) (k0_pay6 v0 v11 v17) (k0_pay7 v17) (k0_pay8 v0 v11) (ix2 r q)
      = (∑ i : Fin 8, k0_pay3 v0 v11 (ix2 r (wcol 0 i)) * k0_pay5 v17 (ix2 r (col i q))) + v16 (ix2 r 0) := by
  simp only [k0_pay9, k0_pay6, k0_pay7, k0_pay8, addf_at, mulf_at, truncf_at, wcol_read, bcol_read, xlane_read, zero_at]
  rw [Fin.sum_univ_eight, zero_add]
  rfl

theorem slab1 :
    k0_pay11 v13 v16 v18 (k0_pay10 v13 v18) (ix2 r q)
      = (∑ i : Fin 8, v13 (ix2 r (wcol 1 i)) * v18 (ix2 r (col i q))) + v16 (ix2 r 1) := by
  simp only [k0_pay11, k0_pay10, addf_at, mulf_at, truncf_at, wcol_read, bcol_read, xlane_read, zero_at]
  rw [Fin.sum_univ_eight, zero_add]
  rfl

theorem slab2 :
    k0_pay15 v13 v16 v18 (k0_pay12 v13 v18) (k0_pay13 v13) (k0_pay14 v18) (ix2 r q)
      = (∑ i : Fin 8, v13 (ix2 r (wcol 2 i)) * v18 (ix2 r (col i q))) + v16 (ix2 r 2) := by
  simp only [k0_pay15, k0_pay12, k0_pay13, k0_pay14, addf_at, mulf_at, truncf_at, wcol_read, bcol_read, xlane_read, zero_at]
  rw [Fin.sum_univ_eight, zero_add]
  rfl

theorem slab3 :
    k0_pay19 v13 v16 v18 (k0_pay16 v13 v18) (k0_pay17 v18) (k0_pay18 v13) (ix2 r q)
      = (∑ i : Fin 8, v13 (ix2 r (wcol 3 i)) * v18 (ix2 r (col i q))) + v16 (ix2 r 3) := by
  simp only [k0_pay19, k0_pay16, k0_pay17, k0_pay18, addf_at, mulf_at, truncf_at, wcol_read, bcol_read, xlane_read, zero_at]
  rw [Fin.sum_univ_eight, zero_add]
  rfl

theorem slab4 :
    k0_pay21 v13 v16 v18 (k0_pay20 v13 v18) (ix2 r q)
      = (∑ i : Fin 8, v13 (ix2 r (wcol 4 i)) * v18 (ix2 r (col i q))) + v16 (ix2 r 4) := by
  simp only [k0_pay21, k0_pay20, addf_at, mulf_at, truncf_at, wcol_read, bcol_read, xlane_read, zero_at]
  rw [Fin.sum_univ_eight, zero_add]
  rfl

theorem slab5 :
    k0_pay25 v13 v16 v18 (k0_pay22 v13 v18) (k0_pay23 v13) (k0_pay24 v18) (ix2 r q)
      = (∑ i : Fin 8, v13 (ix2 r (wcol 5 i)) * v18 (ix2 r (col i q))) + v16 (ix2 r 5) := by
  simp only [k0_pay25, k0_pay22, k0_pay23, k0_pay24, addf_at, mulf_at, truncf_at, wcol_read, bcol_read, xlane_read, zero_at]
  rw [Fin.sum_univ_eight, zero_add]
  rfl

theorem slab6 :
    k0_pay29 v13 v16 v18 (k0_pay26 v13 v18) (k0_pay27 v18) (k0_pay28 v13) (ix2 r q)
      = (∑ i : Fin 8, v13 (ix2 r (wcol 6 i)) * v18 (ix2 r (col i q))) + v16 (ix2 r 6) := by
  simp only [k0_pay29, k0_pay26, k0_pay27, k0_pay28, addf_at, mulf_at, truncf_at, wcol_read, bcol_read, xlane_read, zero_at]
  rw [Fin.sum_univ_eight, zero_add]
  rfl

theorem slab7 :
    k0_pay1 v13 v16 v18 (k0_pay30 v13 v18) (ix2 r q)
      = (∑ i : Fin 8, v13 (ix2 r (wcol 7 i)) * v18 (ix2 r (col i q))) + v16 (ix2 r 7) := by
  simp only [k0_pay1, k0_pay30, addf_at, mulf_at, truncf_at, wcol_read, bcol_read, xlane_read, zero_at]
  rw [Fin.sum_univ_eight, zero_add]
  rfl

end Slabs

/-- With the gathered weights and biases read as one-hot products and the features as the block itself, the summed
    products and the bias are the edge's message. -/
theorem msg_of_parts (x0 : Vec Ideal S4096x1 .i32) (x1 : Vec Ideal S4096x128 .bf16) (x2 : Vec Ideal S128x64 .bf16)
    (x3 : Vec Ideal S128x8 .f32) (r : Fin 4096) (o : Fin 8) (q : Fin 16) :
    (∑ i : Fin 8, k0_pay3 x0 x2 (ix2 r (wcol o i)) * k0_pay5 x1 (ix2 r (col i q))) + k0_pay4 x0 x3 (ix2 r o)
      = blockMsg ((x0 : S4096x1.Idx → BitVec 32) (ix2 r 0)) (fun cc => (x1 : S4096x128.Idx → EReal) (ix2 r cc))
          (fun t k => (x2 : S128x64.Idx → EReal) (ix2 t k)) (fun t o' => (x3 : S128x8.Idx → EReal) (ix2 t o')) o q := by
  simp only [pay3_apply, pay4_apply, pay5_eq]
  rfl

/-! ## The last store that covers an entry decides it -/

/-- A store of a 16-lane column slab that lies wholly to one side of slab o leaves slab o's entries as the earlier
    stores left them. -/
theorem canon_skip {c : Nat} (inb : ∀ a, (![0, c] : Fin 2 → Nat) a + S4096x16.size a ≤ S4096x128.size a)
    (w : (Rect.unit (s := S4096x128) ![0, c] S4096x16.size inb).shape.Idx → Elt Ideal .bf16)
    (L : List (View.Piece (Elt Ideal) S4096x128 .bf16)) (r : Fin 4096) (o : Fin 8) (q : Fin 16)
    (h : o.val * 16 + 16 ≤ c ∨ c + 16 ≤ o.val * 16) :
    View.canon (⟨Rect.unit (s := S4096x128) ![0, c] S4096x16.size inb, w⟩ :: L) (ix2 r (col o q))
      = View.canon L (ix2 r (col o q)) := by
  refine View.canon_cons_of_not_mem _ L ?_
  rw [Rect.mem_set_unit]
  intro hall
  have h1 := hall 1
  have e : ((ix2 r (col o q) : S4096x128.Idx) 1).val = o.val * 16 + q.val := rfl
  have h2 : c ≤ o.val * 16 + q.val ∧ o.val * 16 + q.val < c + 16 := by rw [← e]; exact h1
  have := q.isLt
  omega

/-- A store of the 16-lane column slab that starts at lane o·16 leaves its payload at slab o's entries. -/
theorem canon_take {c : Nat} (inb : ∀ a, (![0, c] : Fin 2 → Nat) a + S4096x16.size a ≤ S4096x128.size a)
    (w : (Rect.unit (s := S4096x128) ![0, c] S4096x16.size inb).shape.Idx → Elt Ideal .bf16)
    (L : List (View.Piece (Elt Ideal) S4096x128 .bf16)) (r : Fin 4096) (o : Fin 8) (q : Fin 16)
    (h : c = o.val * 16) :
    View.canon (⟨Rect.unit (s := S4096x128) ![0, c] S4096x16.size inb, w⟩ :: L) (ix2 r (col o q)) = w (ix2 r q) := by
  have hy : (Rect.unit (s := S4096x128) ![0, c] S4096x16.size inb).emb (ix2 r q) = ix2 r (col o q) :=
    funext fun a => Fin.ext (by
      match a with
      | ⟨0, _⟩ => show 0 + 1 * r.val = r.val; omega
      | ⟨1, _⟩ => show c + 1 * q.val = o.val * 16 + q.val; omega)
  rw [← hy]
  exact View.canon_cons_emb _ w L (ix2 r q)

end Body

open Body in
/-- Row r, slab o, lane q of the output block: the edge's message, from the edge's type word, its feature row and the
    two padded tables. -/
theorem out_apply (x0 : Vec Ideal S4096x1 .i32) (x1 : Vec Ideal S4096x128 .bf16) (x2 : Vec Ideal S128x64 .bf16) (x3 : Vec Ideal S128x8 .f32)
    (r : Fin 4096) (o : Fin 8) (q : Fin 16) :
    (out0_4 (F := Ideal) x0 x1 x2 x3 : S4096x128.Idx → EReal) (ix2 r (col o q))
      = blockMsg ((x0 : S4096x1.Idx → BitVec 32) (ix2 r 0)) (fun cc => (x1 : S4096x128.Idx → EReal) (ix2 r cc))
          (fun t k => (x2 : S128x64.Idx → EReal) (ix2 t k)) (fun t o' => (x3 : S128x8.Idx → EReal) (ix2 t o')) o q := by
  have hz : (![0, 0] : Fin 2 → Nat) = fun _ => 0 := funext fun a => by
    match a with
    | ⟨0, _⟩ => rfl
    | ⟨1, _⟩ => rfl
  unfold out0_4
  simp only [View.ld_unit_zero (S := S4096x1) hz, View.ld_unit_zero (S := S128x64) hz, View.ld_unit_zero (S := S128x8) hz,
    View.ld_unit_zero (S := S4096x128) hz]
  match o with
  | ⟨0, _⟩ =>
    refine (canon_skip _ _ _ r 0 q (by decide)).trans ?_
    refine (canon_skip _ _ _ r 0 q (by decide)).trans ?_
    refine (canon_skip _ _ _ r 0 q (by decide)).trans ?_
    refine (canon_skip _ _ _ r 0 q (by decide)).trans ?_
    refine (canon_skip _ _ _ r 0 q (by decide)).trans ?_
    refine (canon_skip _ _ _ r 0 q (by decide)).trans ?_
    refine (canon_skip _ _ _ r 0 q (by decide)).trans ?_
    refine (canon_take _ _ _ r 0 q (by decide)).trans ?_
    exact (slab0 _ r q x0 x2 x1).trans (msg_of_parts x0 x1 x2 x3 r 0 q)
  | ⟨1, _⟩ =>
    refine (canon_skip _ _ _ r 1 q (by decide)).trans ?_
    refine (canon_skip _ _ _ r 1 q (by decide)).trans ?_
    refine (canon_skip _ _ _ r 1 q (by decide)).trans ?_
    refine (canon_skip _ _ _ r 1 q (by decide)).trans ?_
    refine (canon_skip _ _ _ r 1 q (by decide)).trans ?_
    refine (canon_skip _ _ _ r 1 q (by decide)).trans ?_
    refine (canon_take _ _ _ r 1 q (by decide)).trans ?_
    exact (slab1 _ _ _ r q).trans (msg_of_parts x0 x1 x2 x3 r 1 q)
  | ⟨2, _⟩ =>
    refine (canon_skip _ _ _ r 2 q (by decide)).trans ?_
    refine (canon_skip _ _ _ r 2 q (by decide)).trans ?_
    refine (canon_skip _ _ _ r 2 q (by decide)).trans ?_
    refine (canon_skip _ _ _ r 2 q (by decide)).trans ?_
    refine (canon_skip _ _ _ r 2 q (by decide)).trans ?_
    refine (canon_take _ _ _ r 2 q (by decide)).trans ?_
    exact (slab2 _ _ _ r q).trans (msg_of_parts x0 x1 x2 x3 r 2 q)
  | ⟨3, _⟩ =>
    refine (canon_skip _ _ _ r 3 q (by decide)).trans ?_
    refine (canon_skip _ _ _ r 3 q (by decide)).trans ?_
    refine (canon_skip _ _ _ r 3 q (by decide)).trans ?_
    refine (canon_skip _ _ _ r 3 q (by decide)).trans ?_
    refine (canon_take _ _ _ r 3 q (by decide)).trans ?_
    exact (slab3 _ _ _ r q).trans (msg_of_parts x0 x1 x2 x3 r 3 q)
  | ⟨4, _⟩ =>
    refine (canon_skip _ _ _ r 4 q (by decide)).trans ?_
    refine (canon_skip _ _ _ r 4 q (by decide)).trans ?_
    refine (canon_skip _ _ _ r 4 q (by decide)).trans ?_
    refine (canon_take _ _ _ r 4 q (by decide)).trans ?_
    exact (slab4 _ _ _ r q).trans (msg_of_parts x0 x1 x2 x3 r 4 q)
  | ⟨5, _⟩ =>
    refine (canon_skip _ _ _ r 5 q (by decide)).trans ?_
    refine (canon_skip _ _ _ r 5 q (by decide)).trans ?_
    refine (canon_take _ _ _ r 5 q (by decide)).trans ?_
    exact (slab5 _ _ _ r q).trans (msg_of_parts x0 x1 x2 x3 r 5 q)
  | ⟨6, _⟩ =>
    refine (canon_skip _ _ _ r 6 q (by decide)).trans ?_
    refine (canon_take _ _ _ r 6 q (by decide)).trans ?_
    exact (slab6 _ _ _ r q).trans (msg_of_parts x0 x1 x2 x3 r 6 q)
  | ⟨7, _⟩ =>
    refine (canon_take _ _ _ r 7 q (by decide)).trans ?_
    exact (slab7 _ _ _ r q).trans (msg_of_parts x0 x1 x2 x3 r 7 q)

end Cert.Gnn

end
-- ==== Proof.KernelBlocks.lean ====
/-
  The message array after the region, read at one entry: the blocks the grid points write tile it.

  The region's grid has 261 points. Point t reads rows t·4096 … t·4096 + 4095 of the type column and of the gathered
  features, and both padded tables whole; it writes the same rows of the message array. So the array after the region
  is one function of the arrays the region finds: row e holds edge e's message, whichever point wrote it.
-/
import proofs.«430689_j8091718385775_3_alg».proof.Proof.KernelBody
import proofs.«430689_j8091718385775_3_alg».proof.Proof.KernelNames
import Idealize.ShloMosaic.Lib.Pipeline.Value

set_option maxRecDepth 16384

noncomputable section

namespace Cert.Gnn

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (c : Dev nD)

namespace Blocks

/-- Which block each window holds at a grid point: the three edge-indexed windows (types, features, messages) hold
    block (t, 0); the two tables are one block each, at (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The message array as one function of the arrays the region finds: row e, column o·16 + q holds edge e's message
    at slab o, lane q. -/
def msgFn : S1069056x128.Idx → EReal := fun i =>
  blockMsg (vTy m c (ix2 (i 0) 0)) (fun cc => vXs m c (ix2 (i 0) cc)) (fun t k => vWt m c (ix2 t k))
    (fun t o' => vBt m c (ix2 t o'))
    ⟨(i 1).val / 16, by have h : (i 1).val < 128 := (i 1).isLt; omega⟩ ⟨(i 1).val % 16, Nat.mod_lt _ (by decide)⟩

/-- Row r of the type block at point t is row t·4096 + r of the type column. -/
theorem ty_block (t : Fin cfg0.N) (r : Fin 4096) (i : S1069056x1.Idx) (h0 : (i 0).val = t.val * 4096 + r.val) :
    (iblk m c 0 t : S4096x1.Idx → BitVec 32) (ix2 r 0) = vTy m c i := by
  obtain ⟨e0, e1, -⟩ := block_index t
  unfold iblk
  rw [View.read_apply]
  show vTy m c (((cfg0.win 0).blk t).view.emb (ix2 r 0)) = vTy m c i
  refine congrArg (vTy m c) (funext fun a => Fin.ext ?_)
  match a with
  | ⟨0, _⟩ => show win0_0.index t (0 : Fin 2) * 4096 + 1 * r.val = (i 0).val; omega
  | ⟨1, _⟩ => show win0_0.index t (1 : Fin 2) * 1 + 1 * 0 = (i 1).val; have h : (i 1).val < 1 := (i 1).isLt; omega

/-- Entry (r, cc) of the feature block at point t is entry (t·4096 + r, cc) of the gathered features. -/
theorem xs_block (t : Fin cfg0.N) (r : Fin 4096) (cc : Fin 128) (i : S1069056x128.Idx)
    (h0 : (i 0).val = t.val * 4096 + r.val) (h1 : (i 1).val = cc.val) :
    (iblk m c 1 t : S4096x128.Idx → EReal) (ix2 r cc) = vXs m c i := by
  obtain ⟨-, -, e0, e1, -⟩ := block_index t
  unfold iblk
  rw [View.read_apply]
  show vXs m c (((cfg0.win 1).blk t).view.emb (ix2 r cc)) = vXs m c i
  refine congrArg (vXs m c) (funext fun a => Fin.ext ?_)
  match a with
  | ⟨0, _⟩ => show win0_1.index t (0 : Fin 2) * 4096 + 1 * r.val = (i 0).val; omega
  | ⟨1, _⟩ => show win0_1.index t (1 : Fin 2) * 128 + 1 * cc.val = (i 1).val; omega

/-- The weight block at any point is the whole padded weight table. -/
theorem wt_block (t : Fin cfg0.N) (y : S128x64.Idx) : (iblk m c 2 t : S128x64.Idx → EReal) y = vWt m c y := by
  obtain ⟨-, -, -, -, e0, e1, -⟩ := block_index t
  unfold iblk
  rw [View.read_apply]
  show vWt m c (((cfg0.win 2).blk t).view.emb y) = vWt m c y
  refine congrArg (vWt m c) (funext fun a => Fin.ext ?_)
  match a with
  | ⟨0, _⟩ => show win0_2.index t (0 : Fin 2) * 128 + 1 * (y 0).val = (y 0).val; omega
  | ⟨1, _⟩ => show win0_2.index t (1 : Fin 2) * 64 + 1 * (y 1).val = (y 1).val; omega

/-- The bias block at any point is the whole padded bias table. -/
theorem bt_block (t : Fin cfg0.N) (y : S128x8.Idx) : (iblk m c 3 t : S128x8.Idx → EReal) y = vBt m c y := by
  obtain ⟨-, -, -, -, -, -, e0, e1, -⟩ := block_index t
  unfold iblk
  rw [View.read_apply]
  show vBt m c (((cfg0.win 3).blk t).view.emb y) = vBt m c y
  refine congrArg (vBt m c) (funext fun a => Fin.ext ?_)
  match a with
  | ⟨0, _⟩ => show win0_3.index t (0 : Fin 2) * 128 + 1 * (y 0).val = (y 0).val; omega
  | ⟨1, _⟩ => show win0_3.index t (1 : Fin 2) * 8 + 1 * (y 1).val = (y 1).val; omega

/-- A message depends on its six arguments only. -/
theorem blockMsg_congr {ty ty' : BitVec 32} {xs xs' : Fin 128 → EReal} {wt wt' : Fin 128 → Fin 64 → EReal}
    {bt bt' : Fin 128 → Fin 8 → EReal} {o o' : Fin 8} {q q' : Fin 16}
    (h0 : ty = ty') (h1 : xs = xs') (h2 : wt = wt') (h3 : bt = bt') (h4 : o = o') (h5 : q = q') :
    blockMsg ty xs wt bt o q = blockMsg ty' xs' wt' bt' o' q' := by
  rw [h0, h1, h2, h3, h4, h5]

/-- A column of a flattened [8 × 16] row is its slab times sixteen plus its lane. -/
theorem col_split (cc : Fin 128) :
    col ⟨cc.val / 16, by have h : cc.val < 128 := cc.isLt; omega⟩ ⟨cc.val % 16, Nat.mod_lt _ (by decide)⟩ = cc :=
  Fin.ext (by show cc.val / 16 * 16 + cc.val % 16 = cc.val; omega)

/-- Where entry (r, cc) of the message block at point t lies in the message array: row t·4096 + r, column cc. -/
theorem msg_emb (t : Fin cfg0.N) (r : Fin 4096) (cc : Fin 128) :
    (((((cfg0.win 4).blk t).view.emb (ix2 r cc) : S1069056x128.Idx) 0).val = t.val * 4096 + r.val)
    ∧ (((((cfg0.win 4).blk t).view.emb (ix2 r cc) : S1069056x128.Idx) 1).val = cc.val) := by
  obtain ⟨-, -, -, -, -, -, -, -, e0, e1⟩ := block_index t
  constructor
  · show win0_4.index t (0 : Fin 2) * 4096 + 1 * r.val = _; omega
  · show win0_4.index t (1 : Fin 2) * 128 + 1 * cc.val = _; omega

/-- The message of row r of point t's blocks, at the slab and lane of column cc, is the array function at any index
    of row t·4096 + r and column cc: the type and feature rows are the arrays' rows, the tables are whole. -/
theorem msg_at (t : Fin cfg0.N) (r : Fin 4096) (cc : Fin 128) (E : S1069056x128.Idx)
    (hE0 : (E 0).val = t.val * 4096 + r.val) (hE1 : (E 1).val = cc.val) :
    blockMsg ((iblk m c 0 t : S4096x1.Idx → BitVec 32) (ix2 r 0)) (fun cc' => (iblk m c 1 t : S4096x128.Idx → EReal) (ix2 r cc'))
        (fun t' k => (iblk m c 2 t : S128x64.Idx → EReal) (ix2 t' k)) (fun t' o' => (iblk m c 3 t : S128x8.Idx → EReal) (ix2 t' o'))
        ⟨cc.val / 16, by have h : cc.val < 128 := cc.isLt; omega⟩ ⟨cc.val % 16, Nat.mod_lt _ (by decide)⟩
      = msgFn m c E := by
  unfold msgFn
  exact blockMsg_congr (ty_block m c t r (ix2 (E 0) 0) hE0) (funext fun cc' => xs_block m c t r cc' (ix2 (E 0) cc') hE0 rfl)
    (funext fun t' => funext fun k => wt_block m c t (ix2 t' k)) (funext fun t' => funext fun o' => bt_block m c t (ix2 t' o'))
    (Fin.ext (by show cc.val / 16 = (E 1).val / 16; rw [hE1])) (Fin.ext (by show cc.val % 16 = (E 1).val % 16; rw [hE1]))

/-- What grid point t writes back is block t of that function: entry (r, cc) of the body's block is the message of
    row r of the point's blocks, and it lands at row t·4096 + r, column cc of the array. -/
theorem flushed_eq (t : Fin cfg0.N) :
    (dats m 0 c).flushed 4 t = ((cfg0.win 4).blk t).view.read (Elt Ideal) (msgFn m c) := by
  show (cfg0.win 4).cut (grid0.coords t) ((dats m 0 c).after 4 t) = _
  rw [after0_4]
  funext j
  obtain ⟨r, cc, rfl⟩ : ∃ (r : Fin 4096) (cc : Fin 128), j = ix2 r cc := ⟨j 0, j 1, eq_ix2 j⟩
  rw [View.read_apply]
  show (out0_4 (F := Ideal) (iblk m c 0 t) (iblk m c 1 t) (iblk m c 2 t) (iblk m c 3 t) : S4096x128.Idx → EReal) (ix2 r cc)
    = msgFn m c (((cfg0.win 4).blk t).view.emb (ix2 r cc))
  obtain ⟨hE0, hE1⟩ := msg_emb t r cc
  have key := out_apply (iblk m c 0 t) (iblk m c 1 t) (iblk m c 2 t) (iblk m c 3 t) r
    ⟨cc.val / 16, by have h : cc.val < 128 := cc.isLt; omega⟩ ⟨cc.val % 16, Nat.mod_lt _ (by decide)⟩
  rw [col_split cc] at key
  exact key.trans (msg_at m c t r cc (((cfg0.win 4).blk t).view.emb (ix2 r cc)) hE0 hE1)

/-- Point t's block is a rectangle of the array: an index lies in it iff on each axis its coordinate is at least the
    block's start, the block index times the block length, and less than one block length beyond it. -/
theorem mem_block (t : Fin cfg0.N) (i : S1069056x128.Idx) :
    i ∈ ((cfg0.win 4).blk t).view.set ↔ ∀ a : Fin 2, win0_4.index t a * S4096x128.size a ≤ (i a).val
      ∧ (i a).val < win0_4.index t a * S4096x128.size a + S4096x128.size a := by
  show i ∈ ((View.whole main_v25).slice (win0_4.rect t)).set ↔ _
  rw [View.set_slice_whole, Rect.mem_set_unit]
  exact Iff.rfl

/-- The blocks tile the array: row e lies in the block of point e / 4096. -/
theorem cover (i : S1069056x128.Idx) :
    ∃ t : Fin cfg0.N, (cfg0.win 4).flush t = true ∧ i ∈ ((cfg0.win 4).blk t).view.set := by
  have hi0 : (i 0).val < 1069056 := (i 0).isLt
  have hi1 : (i 1).val < 128 := (i 1).isLt
  have hN : cfg0.N = 261 := N_0
  have ht : (i 0).val / 4096 < cfg0.N := by rw [hN]; omega
  obtain ⟨-, -, -, -, -, -, -, -, e0, e1⟩ := block_index ⟨(i 0).val / 4096, ht⟩
  refine ⟨⟨(i 0).val / 4096, ht⟩, flush0_4 _, ?_⟩
  rw [mem_block]
  intro a
  match a with
  | ⟨0, _⟩ =>
    show win0_4.index ⟨(i 0).val / 4096, ht⟩ (0 : Fin 2) * 4096 ≤ (i 0).val
      ∧ (i 0).val < win0_4.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win0_4.index ⟨(i 0).val / 4096, ht⟩ (1 : Fin 2) * 128 ≤ (i 1).val
      ∧ (i 1).val < win0_4.index ⟨(i 0).val / 4096, ht⟩ (1 : Fin 2) * 128 + 128
    rw [e1]; omega

/-- So the message array after the region is that function. -/
theorem msgArr_eq : msgArr m c = msgFn m c :=
  (dats m 0 c).arrAt_eq_of_cover 4 (msgFn m c) (fun t _ => flushed_eq m c t) cover

end Blocks

open Blocks in
/-- Entry (e, o·16 + q) of the message array after the region is edge e's message, from the arrays the region finds. -/
theorem arr_apply (e : Fin 1069056) (o : Fin 8) (q : Fin 16) :
    msgArr m c (ix2 e (col o q))
      = blockMsg (vTy m c (ix2 e 0)) (fun cc => vXs m c (ix2 e cc)) (fun t k => vWt m c (ix2 t k)) (fun t o' => vBt m c (ix2 t o')) o q := by
  refine (congrFun (msgArr_eq m c) (ix2 e (col o q))).trans ?_
  have ho : o.val < 8 := o.isLt
  have hq : q.val < 16 := q.isLt
  exact blockMsg_congr rfl rfl rfl rfl (Fin.ext (by show (o.val * 16 + q.val) / 16 = o.val; omega))
    (Fin.ext (by show (o.val * 16 + q.val) % 16 = q.val; omega))

end Cert.Gnn

end
-- ==== Proof.KernelTail.lean ====
/-
  The kernel program's run with its result named, and the result read at one index: the scatter of the message array
  by the padded targets, un-flattened.
-/
import proofs.«430689_j8091718385775_3_alg».proof.Proof.KernelNames
import Idealize.ShloMosaic.Lib.Pipeline.Value

set_option maxRecDepth 16384

noncomputable section

namespace Cert.Gnn

open Idealize.ShloMosaic Idealize.ShloMosaic.ValueIdx Idealize.ShloMosaic.TcCoe Idealize.SL.Sem Cert.Decode Cert.KernelIdeal Cert.KernelIdeal.Gen

variable (m : (ℓ : Loc nD τ sig) → Buf (Elt Ideal) ℓ) (ρ : Dev nD → PrngReg) (c : Dev nD)

/-- The result buffer after the lines that follow the region. -/
def kerOut : S65536x8x16.Idx → EReal := Pipeline.afterTail₀ cfgs (dats m) 0 (V0 m) [hostOps1] c main_v30

/-- The lines after the region, over any target list and message array, read at node n, feature o, lane q.
    The un-flattening reads (n, o, q) at (n, o·16 + q), both at row-major position n·128 + o·16 + q; the scatter into
    zeros leaves at row n the sum of the updates whose index lands on n; the index column's row e is target e; and
    widening a number changes nothing over the extended reals. -/
theorem kerOut_tail_apply (tgt : S1069056.Idx → BitVec 32) (msg : S1069056x128.Idx → EReal) (n : Fin 65536) (o : Fin 8) (q : Fin 16) :
    shapeCast S65536x8x16
        (Host.scatterAdd (F := Ideal) (φ := .f32) scatter_S65536x128_S1069056x1_S1069056x128_1_0_0_1
          (broadcastInDim S65536x128 ![] bcast_S_S65536x128 (constant (F := Ideal) S_ .f32 0x00000000#32))
          (broadcastInDim S1069056x1 ![0] bcast_S1069056_S1069056x1_0 tgt)
          (extf (F := Ideal) (φ := .bf16) .f32 msg bitsLt_bf16_f32))
        shapeCasts_S65536x128_S65536x8x16 (ix3 n o q)
      = ∑ e ∈ Finset.univ.filter (fun e : Fin 1069056 => landing 65536 (tgt (ix1 e)) = some n), msg (ix2 e (col o q)) := by
  have hidx : ∀ e : Fin 1069056,
      broadcastInDim S1069056x1 ![0] bcast_S1069056_S1069056x1_0 tgt (ix2 e 0) = tgt (ix1 e) := fun e =>
    broadcastInDim_apply _ _ tgt (ix2 e 0) (ix1 e) (fun a => by
      match a with
      | ⟨0, _⟩ => rfl)
  rw [shapeCast_apply _ _ (ix3 n o q) (ix2 n (col o q)) (by
    rw [Shape.rowMajor_val_two, Shape.rowMajor_val_three]
    show n.val * 128 + (o.val * 16 + q.val) = (n.val * 8 + o.val) * 16 + q.val
    omega)]
  rw [scatterAdd_rows _ rfl rfl rfl rfl]
  rw [broadcastInDim_apply _ _ _ (ix2 n (col o q)) ix0 (fun a => a.elim0)]
  rw [constant_apply, Ideal.ofBits_zero_f32, zero_add]
  simp only [hidx]
  rfl

/-- Every weakly fair run ends with the result buffer at kerOut and the arguments unchanged. -/
theorem run_result : θ_run defs (onTc (τ := τ) (main (F := Ideal))) ⟨m, fun _ => 0, ρ⟩ (fun r => ∀ c : Dev nD,
      r.2.mem ((c.tc : Thread nD τ).loc main_v30) = kerOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  exact (θ_run defs _ _).mono (fun _ h c =>
    ⟨(h c).2 main_v30 (Pipeline.mem_restRefs_of main_v30 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

/-- The result at node n, feature o, lane q: the sum, over the padded edges whose target lands on n, of the message
    array's entry (e, o·16 + q). -/
theorem kerOut_apply (n : Fin 65536) (o : Fin 8) (q : Fin 16) :
    kerOut m c (ix3 n o q)
      = ∑ e ∈ Finset.univ.filter (fun e : Fin 1069056 => landing 65536 (vTgt m c (ix1 e)) = some n), msgArr m c (ix2 e (col o q)) := by
  unfold kerOut Pipeline.afterTail₀
  show StableHlo.after hostOps1 _ (Proc.devRef .tc main_v30) (ix3 n o q) = _
  after_results
  have hA : Pipeline.withArrays (cfgs 0).spec c (V0 m c) (fun w => (dats m 0 c).arrAt w (cfgs 0).N) (Proc.devRef .tc main_v25)
      = msgArr m c := Pipeline.withArrays_arr spec0 launch0.win.arr_inj c _ _ 4
  have hT : Pipeline.withArrays (cfgs 0).spec c (V0 m c) (fun w => (dats m 0 c).arrAt w (cfgs 0).N) (Proc.devRef .tc main_v3)
      = vTgt m c :=
    Pipeline.withArrays_of_ne _ c (V0 m c) _ main_v3 (by exact (by decide : ∀ w, Pipeline.arrRef spec0 w ≠ main_v3))
  rw [hA, hT]
  exact kerOut_tail_apply (vTgt m c) (msgArr m c) n o q

end Cert.Gnn

end
-- ==== Proof.lean ====
/-
  The relation-typed graph convolution against its jnp reference, over the extended reals.

  Both programs compute, for every node n, output feature o and lane q,

      y[n, o, q] = Σ over the edges e whose target lands on n of ( Σ_i W[t_e - 1, o, i] · x[s_e, i, q] + b[t_e - 1, o] ),

  t_e the edge's type and s_e its source. The reference gathers the weight matrices, the feature rows and the biases,
  multiplies edge by edge, and scatters the products and the biases separately. The kernel pads the edge list to
  261 blocks of 4096 edges (type 66, source 0, target 0), selects the table rows inside the body by a product with a
  one-hot row over tables padded with zero rows to 128, and scatters the flattened messages once.

  The two agree where every edge type lies in 1 … 65, the rows the weight and bias tables have: there the clamped
  word t_e - 1 is the row the reference gathers, a padding edge's one-hot row picks a zero row of both padded tables
  so its message vanishes, and a sum of (products + bias) is the sum of the products plus the sum of the biases; no
  law used needs the inputs finite (zero times anything is zero on the extended reals). Outside that range the
  reference's index leaves its table.

  The pieces: the reference's result at an index (RefValue); the kernel body's block at an entry (KernelBody), the
  blocks tiling the message array (KernelBlocks), the arrays the region finds from the arguments (KernelArgs), the
  lines after the region (KernelTail); the edge types' range from the precondition (PreRange); and the equality of
  the two sums (Bridge).
-/
import proofs.«430689_j8091718385775_3_alg».proof.Defs
import proofs.«430689_j8091718385775_3_alg».proof.Proof.Gen.Kernel
import proofs.«430689_j8091718385775_3_alg».proof.Proof.Gen.Kernel.Skeleton
import proofs.«430689_j8091718385775_3_alg».proof.Proof.Gen.Kernel.Launch
import proofs.«430689_j8091718385775_3_alg».proof.Proof.Gen.Kernel.Points
import proofs.«430689_j8091718385775_3_alg».proof.Proof.Gen.Kernel.Frame
import proofs.«430689_j8091718385775_3_alg».proof.Proof.Gen.KernelIdeal
import proofs.«430689_j8091718385775_3_alg».proof.Proof.Gen.KernelIdeal.Skeleton
import proofs.«430689_j8091718385775_3_alg».proof.Proof.Gen.KernelIdeal.Launch
import proofs.«430689_j8091718385775_3_alg».proof.Proof.Gen.KernelIdeal.Points
import proofs.«430689_j8091718385775_3_alg».proof.Proof.Gen.KernelIdeal.Frame
import proofs.«430689_j8091718385775_3_alg».proof.Proof.Gen.ReferenceIdeal
import proofs.«430689_j8091718385775_3_alg».proof.Proof.Gen.Pre_finite_inputs
import proofs.«430689_j8091718385775_3_alg».proof.Proof.Gen.ReferenceIdeal.Run
import proofs.«430689_j8091718385775_3_alg».proof.Proof.Gen.ReferenceIdeal.Read
import proofs.«430689_j8091718385775_3_alg».proof.Proof.Bridge
import proofs.«430689_j8091718385775_3_alg».proof.Proof.RefValue
import proofs.«430689_j8091718385775_3_alg».proof.Proof.PreRange
import proofs.«430689_j8091718385775_3_alg».proof.Proof.KernelArgs
import proofs.«430689_j8091718385775_3_alg».proof.Proof.KernelBlocks
import proofs.«430689_j8091718385775_3_alg».proof.Proof.KernelTail
import Idealize.ShloMosaic.Adequacy
import Idealize.ShloMosaic.Init

set_option maxRecDepth 16384

noncomputable section

namespace Cert.Proof

open Idealize.ShloMosaic Idealize.ShloMosaic.ValueIdx Idealize.SL.Sem

/-- The word-level kernel runs and leaves its arguments as they were. -/
theorem frame_k [Cert.Pre_finite_inputs.Facts] : Cert.frame_Kernel := fun m ρ _ => Cert.Kernel.Gen.frame m ρ

/-- So does the kernel read at the ideal values. -/
theorem frame_ki [Cert.Pre_finite_inputs.Facts] : Cert.frame_KernelIdeal := fun m ρ _ => Cert.KernelIdeal.Gen.frame m ρ

/-- The reference runs and leaves its arguments as they were: its run with the result dropped. -/
theorem frame_ri [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- At the ideal values, from memories that agree on the arguments, the kernel's result and the reference's are one
    array: entry by entry, the sum of the kernel's messages over the padded edges landing on a node is the
    reference's sum of products plus its sum of biases over the true edges landing there. -/
theorem algebraic [Cert.Pre_finite_inputs.Facts] : Cert.algebraic_KernelIdeal_ReferenceIdeal := by
  intro m ρ m' ρ' hpre hagree
  refine ⟨fun c => Cert.Gnn.kerOut m c, Cert.Gnn.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2.1, (hagree c).2.2.1, (hagree c).2.2.2.1,
    (hagree c).2.2.2.2.1, (hagree c).2.2.2.2.2]
  have hr : ∀ e : Fin 1065536, 1 ≤ (Cert.Gnn.aTy m c (ix1 e)).toInt ∧ (Cert.Gnn.aTy m c (ix1 e)).toInt ≤ 65 :=
    fun e => Cert.Gnn.ty_range _ _ _ _ _ _ (hpre c) e
  funext i
  obtain ⟨n, o, q, rfl⟩ : ∃ (n : Fin 65536) (o : Fin 8) (q : Fin 16), i = ix3 n o q := ⟨i 0, i 1, i 2, eq_ix3 i⟩
  refine (Cert.Gnn.ref_apply _ _ _ _ _ _ n o q).trans ?_
  refine Eq.trans ?_ (Cert.Gnn.kerOut_apply m c n o q).symm
  refine (Cert.Gnn.bridge (Cert.Gnn.aX m c) (Cert.Gnn.aW m c) (Cert.Gnn.aB m c) (Cert.Gnn.aSrc m c) (Cert.Gnn.aTgt m c)
    (Cert.Gnn.aTy m c) hr n o q).symm.trans ?_
  refine Finset.sum_congr (Finset.filter_congr fun e _ => by rw [Cert.Gnn.tgt_apply]) (fun e _ => ?_)
  rw [Cert.Gnn.arr_apply, Cert.Gnn.ty_apply, funext (fun cc => Cert.Gnn.xs_apply m c e cc),
    funext (fun t => funext fun k => Cert.Gnn.wt_apply m c t k), funext (fun t => funext fun o' => Cert.Gnn.bt_apply m c t o')]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
